-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S16000000 : Shape := ⟨1, ![16000000]⟩
abbrev S1024 : Shape := ⟨1, ![1024]⟩
abbrev S8192 : Shape := ⟨1, ![8192]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S16000000 : S_.BroadcastsInDim S16000000 (![] : Fin 0 → Fin S16000000.rank)
  reducesTo_S16000000_S_d0 : S16000000.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : IVec S1000000 32) (main_v32 : IVec S_ 1) (main_c_12 : IVec S_ 32) : IVec S_ 1 :=
  let main_v33 : IVec S1000000 32 := broadcastInDim S1000000 ![] bcast_S_S1000000 main_c_12
  let main_v34 : IVec S1000000 1 := cmpi .sge main_arg8 main_v33
  let main_c_13 : IVec S_ 32 := constantI S_ 32 8#32
  let main_v35 : IVec S1000000 32 := broadcastInDim S1000000 ![] bcast_S_S1000000 main_c_13
  let main_v36 : IVec S1000000 1 := cmpi .slt main_arg8 main_v35
  let main_v37 : IVec S1000000 1 := andi main_v34 main_v36
  let main_c_14 : IVec S_ 1 := constantI S_ 1 1#1
  let main_v38 : IVec S_ 1 := (fun x v => Host.reduce IntOp.andi x v reducesTo_S1000000_S_d0 h_S_) main_v37 main_c_14
  let main_v39 : IVec S_ 1 := andi main_v32 main_v38
  main_v39

def fn_part1 {F : FTy → Type} [FloatOps F] (main_arg4 : IVec S16000000 32) (main_arg7 : IVec S16000000 32) (main_arg8 : IVec S1000000 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_c_6 : IVec S_ 32 := constantI S_ 32 0#32
  let main_v19 : IVec S16000000 32 := broadcastInDim S16000000 ![] bcast_S_S16000000 main_c_6
  let main_v20 : IVec S16000000 1 := cmpi .sge main_arg4 main_v19
  let main_c_7 : IVec S_ 32 := constantI S_ 32 1000000#32
  let main_v21 : IVec S16000000 32 := broadcastInDim S16000000 ![] bcast_S_S16000000 main_c_7
  let main_v22 : IVec S16000000 1 := cmpi .slt main_arg4 main_v21
  let main_v23 : IVec S16000000 1 := andi main_v20 main_v22
  let main_c_8 : IVec S_ 1 := constantI S_ 1 1#1
  let main_v24 : IVec S_ 1 := (fun x v => Host.reduce IntOp.andi x v reducesTo_S16000000_S_d0 h_S_) main_v23 main_c_8
  let main_v25 : IVec S_ 1 := andi main_v18 main_v24
  let main_c_9 : IVec S_ 32 := constantI S_ 32 0#32
  let main_v26 : IVec S16000000 32 := broadcastInDim S16000000 ![] bcast_S_S16000000 main_c_9
  let main_v27 : IVec S16000000 1 := cmpi .sge main_arg7 main_v26
  let main_c_10 : IVec S_ 32 := constantI S_ 32 1024#32
  let main_v28 : IVec S16000000 32 := broadcastInDim S16000000 ![] bcast_S_S16000000 main_c_10
  let main_v29 : IVec S16000000 1 := cmpi .slt main_arg7 main_v28
  let main_v30 : IVec S16000000 1 := andi main_v27 main_v29
  let main_c_11 : IVec S_ 1 := constantI S_ 1 1#1
  let main_v31 : IVec S_ 1 := (fun x v => Host.reduce IntOp.andi x v reducesTo_S16000000_S_d0 h_S_) main_v30 main_c_11
  let main_v32 : IVec S_ 1 := andi main_v25 main_v31
  let main_c_12 : IVec S_ 32 := constantI S_ 32 0#32
  fn_part2 (F := F) main_arg8 main_v32 main_c_12

def fn {F : FTy → Type} [FloatOps F] (main_arg0 : FVec F S1000000 .f32) (main_arg1 : FVec F S16000000 .f32) (main_arg2 : FVec F S1000000 .f32) (main_arg3 : FVec F S1024 .f32) (main_arg4 : IVec S16000000 32) (main_arg5 : IVec S16000000 32) (main_arg6 : IVec S16000000 1) (main_arg7 : IVec S16000000 32) (main_arg8 : IVec S1000000 32) (main_arg9 : IVec S8192 32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S16000000 .f32 := Host.absf main_arg1
  let main_cst_0 : FVec F S_ .f32 := constant S_ .f32 0x7F800000#32
  let main_v5 : FVec F S16000000 .f32 := broadcastInDim S16000000 ![] bcast_S_S16000000 main_cst_0
  let main_v6 : IVec S16000000 1 := cmpf .olt main_v4 main_v5
  let main_c_1 : IVec S_ 1 := constantI S_ 1 1#1
  let main_v7 : IVec S_ 1 := (fun x v => Host.reduce IntOp.andi x v reducesTo_S16000000_S_d0 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg7 main_arg8 main_v13 main_v16
-- ==== Kernel.lean ====
abbrev S1000000 : Shape := ⟨1, ![1000000]⟩
abbrev S16000000 : Shape := ⟨1, ![16000000]⟩
abbrev S1024 : Shape := ⟨1, ![1024]⟩
abbrev S8192 : Shape := ⟨1, ![8192]⟩
abbrev S_ : Shape := ⟨0, ![]⟩
abbrev S16000000x1 : Shape := ⟨2, ![16000000, 1]⟩
abbrev S1 : Shape := ⟨1, ![1]⟩
abbrev S1x1 : Shape := ⟨2, ![1, 1]⟩
abbrev S1024000 : Shape := ⟨1, ![1024000]⟩
abbrev S8000x128 : Shape := ⟨2, ![8000, 128]⟩
abbrev S4000x128 : Shape := ⟨2, ![4000, 128]⟩
abbrev S8192x1 : Shape := ⟨2, ![8192, 1]⟩

abbrev nBuf : Space → Nat
  | .hbm => 91
  | .vmem => 10
  | .smem => 0
  | _ => 0

abbrev bufTy : (tb : Table) → Fin (tcTables nBuf tb) → BufTy
  | .hbm, ⟨0, _⟩ => ⟨S1000000, .f32⟩
  | .hbm, ⟨1, _⟩ => ⟨S16000000, .f32⟩
  | .hbm, ⟨2, _⟩ => ⟨S1000000, .f32⟩
  | .hbm, ⟨3, _⟩ => ⟨S1024, .f32⟩
  | .hbm, ⟨4, _⟩ => ⟨S16000000, .i32⟩
  | .hbm, ⟨5, _⟩ => ⟨S16000000, .i32⟩
  | .hbm, ⟨6, _⟩ => ⟨S16000000, .i1⟩
  | .hbm, ⟨7, _⟩ => ⟨S16000000, .i32⟩
  | .hbm, ⟨8, _⟩ => ⟨S1000000, .i32⟩
  | .hbm, ⟨9, _⟩ => ⟨S8192, .i32⟩
  | .hbm, ⟨10, _⟩ => ⟨S_, .f32⟩
  | .hbm, ⟨11, _⟩ => ⟨S1000000, .f32⟩
  | .hbm, ⟨12, _⟩ => ⟨S1000000, .f32⟩
  | .hbm, ⟨13, _⟩ => ⟨S_, .i32⟩
  | .hbm, ⟨14, _⟩ => ⟨S16000000, .i32⟩
  | .hbm, ⟨15, _⟩ => ⟨S16000000, .i1⟩
  | .hbm, ⟨16, _⟩ => ⟨S_, .i32⟩
  | .hbm, ⟨17, _⟩ => ⟨S16000000, .i32⟩
  | .hbm, ⟨18, _⟩ => ⟨S16000000, .i32⟩
  | .hbm, ⟨19, _⟩ => ⟨S16000000, .i32⟩
  | .hbm, ⟨20, _⟩ => ⟨S16000000x1, .i32⟩
  | .hbm, ⟨21, _⟩ => ⟨S1, .i32⟩
  | .hbm, ⟨22, _⟩ => ⟨S_, .i32⟩
  | .hbm, ⟨23, _⟩ => ⟨S16000000x1, .i32⟩
  | .hbm, ⟨24, _⟩ => ⟨S16000000x1, .i1⟩
  | .hbm, ⟨25, _⟩ => ⟨S1x1, .i32⟩
  | .hbm, ⟨26, _⟩ => ⟨S16000000x1, .i32⟩
  | .hbm, ⟨27, _⟩ => ⟨S16000000x1, .i1⟩
  | .hbm, ⟨28, _⟩ => ⟨S16000000x1, .i1⟩
  | .hbm, ⟨29, _⟩ => ⟨S_, .i1⟩
  | .hbm, ⟨30, _⟩ => ⟨S16000000, .i1⟩
  | .hbm, ⟨31, _⟩ => ⟨S16000000, .f32⟩
  | .hbm, ⟨32, _⟩ => ⟨S_, .f32⟩
  | .hbm, ⟨33, _⟩ => ⟨S16000000, .f32⟩
  | .hbm, ⟨34, _⟩ => ⟨S16000000, .f32⟩
  | .hbm, ⟨35, _⟩ => ⟨S_, .i32⟩
  | .hbm, ⟨36, _⟩ => ⟨S16000000, .i32⟩
  | .hbm, ⟨37, _⟩ => ⟨S16000000, .i1⟩
  | .hbm, ⟨38, _⟩ => ⟨S_, .i32⟩
  | .hbm, ⟨39, _⟩ => ⟨S16000000, .i32⟩
  | .hbm, ⟨40, _⟩ => ⟨S16000000, .i32⟩
  | .hbm, ⟨41, _⟩ => ⟨S16000000, .i32⟩
  | .hbm, ⟨42, _⟩ => ⟨S16000000x1, .i32⟩
  | .hbm, ⟨43, _⟩ => ⟨S1, .i32⟩
  | .hbm, ⟨44, _⟩ => ⟨S_, .i32⟩
  | .hbm, ⟨45, _⟩ => ⟨S16000000x1, .i32⟩
  | .hbm, ⟨46, _⟩ => ⟨S16000000x1, .i1⟩
  | .hbm, ⟨47, _⟩ => ⟨S1x1, .i32⟩
  | .hbm, ⟨48, _⟩ => ⟨S16000000x1, .i32⟩
  | .hbm, ⟨49, _⟩ => ⟨S16000000x1, .i1⟩
  | .hbm, ⟨50, _⟩ => ⟨S16000000x1, .i1⟩
  | .hbm, ⟨51, _⟩ => ⟨S_, .i1⟩
  | .hbm, ⟨52, _⟩ => ⟨S16000000, .i1⟩
  | .hbm, ⟨53, _⟩ => ⟨S16000000, .f32⟩
  | .hbm, ⟨54, _⟩ => ⟨S_, .f32⟩
  | .hbm, ⟨55, _⟩ => ⟨S16000000, .f32⟩
  | .hbm, ⟨56, _⟩ => ⟨S16000000, .f32⟩
  | .hbm, ⟨57, _⟩ => ⟨S16000000, .f32⟩
  | .hbm, ⟨58, _⟩ => ⟨S16000000, .f32⟩
  | .hbm, ⟨59, _⟩ => ⟨S_, .f32⟩
  | .hbm, ⟨60, _⟩ => ⟨S1000000, .f32⟩
  | .hbm, ⟨61, _⟩ => ⟨S16000000x1, .i32⟩
  | .hbm, ⟨62, _⟩ => ⟨S1000000, .f32⟩
  | .hbm, ⟨63, _⟩ => ⟨S_, .i32⟩
  | .hbm, ⟨64, _⟩ => ⟨S_, .f32⟩
  | .hbm, ⟨65, _⟩ => ⟨S1024000, .f32⟩
  | .hbm, ⟨66, _⟩ => ⟨S8000x128, .f32⟩
  | .hbm, ⟨67, _⟩ => ⟨S_, .i32⟩
  | .hbm, ⟨68, _⟩ => ⟨S_, .f32⟩
  | .hbm, ⟨69, _⟩ => ⟨S1024000, .f32⟩
  | .hbm, ⟨70, _⟩ => ⟨S8000x128, .f32⟩
  | .hbm, ⟨71, _⟩ => ⟨S_, .i32⟩
  | .hbm, ⟨72, _⟩ => ⟨S_, .f32⟩
  | .hbm, ⟨73, _⟩ => ⟨S1024000, .f32⟩
  | .hbm, ⟨74, _⟩ => ⟨S8000x128, .f32⟩
  | .hbm, ⟨75, _⟩ => ⟨S_, .i32⟩
  | .hbm, ⟨76, _⟩ => ⟨S_, .i32⟩
  | .hbm, ⟨77, _⟩ => ⟨S1024000, .i32⟩
  | .hbm, ⟨78, _⟩ => ⟨S8000x128, .i32⟩
  | .hbm, ⟨79, _⟩ => ⟨S8000x128, .f32⟩
  | .hbm, ⟨80, _⟩ => ⟨S1024000, .f32⟩
  | .hbm, ⟨81, _⟩ => ⟨S1000000, .f32⟩
  | .hbm, ⟨82, _⟩ => ⟨S_, .i32⟩
  | .hbm, ⟨83, _⟩ => ⟨S8192, .i32⟩
  | .hbm, ⟨84, _⟩ => ⟨S8192, .i1⟩
  | .hbm, ⟨85, _⟩ => ⟨S_, .i32⟩
  | .hbm, ⟨86, _⟩ => ⟨S8192, .i32⟩
  | .hbm, ⟨87, _⟩ => ⟨S8192, .i32⟩
  | .hbm, ⟨88, _⟩ => ⟨S8192, .i32⟩
  | .hbm, ⟨89, _⟩ => ⟨S8192x1, .i32⟩
  | .hbm, ⟨90, _⟩ => ⟨S8192, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .i32⟩
  | .local _ .vmem, ⟨7, _⟩ => ⟨S4000x128, .i32⟩
  | .local _ .vmem, ⟨8, _⟩ => ⟨S4000x128, .f32⟩
  | .local _ .vmem, ⟨9, _⟩ => ⟨S4000x128, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v2 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_cst_0 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_c : Ref sig .tc := ⟨.hbm, 63, rfl⟩
abbrev main_call3_v0 : Ref sig .tc := ⟨.hbm, 64, rfl⟩
abbrev main_v9 : Ref sig .tc := ⟨.hbm, 65, rfl⟩
abbrev main_v10 : Ref sig .tc := ⟨.hbm, 66, rfl⟩
abbrev main_c_1 : Ref sig .tc := ⟨.hbm, 67, rfl⟩
abbrev main_call4_v0 : Ref sig .tc := ⟨.hbm, 68, rfl⟩
abbrev main_v11 : Ref sig .tc := ⟨.hbm, 69, rfl⟩
abbrev main_v12 : Ref sig .tc := ⟨.hbm, 70, rfl⟩
abbrev main_c_2 : Ref sig .tc := ⟨.hbm, 71, rfl⟩
abbrev main_call5_v0 : Ref sig .tc := ⟨.hbm, 72, rfl⟩
abbrev main_v13 : Ref sig .tc := ⟨.hbm, 73, rfl⟩
abbrev main_v14 : Ref sig .tc := ⟨.hbm, 74, rfl⟩
abbrev main_c_3 : Ref sig .tc := ⟨.hbm, 75, rfl⟩
abbrev main_call6_v0 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_c_4 : Ref sig .tc := ⟨.hbm, 82, rfl⟩
abbrev main_v20 : Ref sig .tc := ⟨.hbm, 83, rfl⟩
abbrev main_v21 : Ref sig .tc := ⟨.hbm, 84, rfl⟩
abbrev main_c_5 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1000000 : S_.BroadcastsInDim S1000000 (![] : Fin 0 → Fin S1000000.rank)
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S16000000x1 : S_.BroadcastsInDim S16000000x1 (![] : Fin 0 → Fin S16000000x1.rank)
  bcast_S1_S1x1_1 : S1.BroadcastsInDim S1x1 (![1] : Fin 1 → Fin S1x1.rank)
  bcast_S1x1_S16000000x1_0_1 : S1x1.BroadcastsInDim S16000000x1 (![0, 1] : Fin 2 → Fin S16000000x1.rank)
  reducesTo_S16000000x1_S16000000_d1 : S16000000x1.ReducesTo [1] S16000000
  h_S_ : 0 < S_.numel
  pads_S1000000_S1024000_0240000 : S1000000.Pads (![0] : Fin 1 → Nat) ![24000] ![0] S1024000
  shapeCasts_S1024000_S8000x128 : S1024000.ShapeCasts S8000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S8000x128_S1024000 : S8000x128.ShapeCasts S1024000
  slices_S1024000_S1000000_0 : S1024000.Slices ![0] S1000000
  bcast_S_S8192 : S_.BroadcastsInDim S8192 (![] : Fin 0 → Fin S8192.rank)
  bcast_S8192_S8192x1_0 : S8192.BroadcastsInDim S8192x1 (![0] : Fin 1 → Fin S8192x1.rank)
  gather_S1000000_S16000000x1_S16000000_n_0_n_n_0_1_1_wf : GatherDims.WF S1000000 S16000000x1 S16000000 [] [0] [] [0] [] 1 ![1]
  gather_S1024_S16000000x1_S16000000_n_0_n_n_0_1_1_wf : GatherDims.WF S1024 S16000000x1 S16000000 [] [0] [] [0] [] 1 ![1]
  scatter_S1000000_S16000000x1_S16000000_n_0_0_1_wf : ScatterDims.WF S1000000 S16000000x1 S16000000 [] [0] [0] 1
  gather_S1000000_S8192x1_S8192_n_0_n_n_0_1_1_wf : GatherDims.WF S1000000 S8192x1 S8192 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S8000x128.size a
  hwx0_0 : ∀ i : grid0.Coords, EltTy.bits .f32 = 32 ∨ (Rect.block (s := S8000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S8000x128.size a
  hwx0_1 : ∀ i : grid0.Coords, EltTy.bits .f32 = 32 ∨ (Rect.block (s := S8000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S8000x128.size a
  hwx0_2 : ∀ i : grid0.Coords, EltTy.bits .f32 = 32 ∨ (Rect.block (s := S8000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S8000x128.size a
  hwx0_3 : ∀ i : grid0.Coords, EltTy.bits .i32 = 32 ∨ (Rect.block (s := S8000x128) S4000x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S8000x128.size a
  hwx0_4 : ∀ i : grid0.Coords, EltTy.bits .f32 = 32 ∨ (Rect.block (s := S8000x128) S4000x128.size (cc0_transform_4 i) (hinb0_4 i)).WholeWords (EltTy.packing .f32)

variable [Facts₀]

def gather_S1000000_S16000000x1_S16000000_n_0_n_n_0_1_1 : GatherDims S1000000 S16000000x1 S16000000 where
  offsetDims := []
  collapsedSliceDims := [0]
  operandBatchingDims := []
  startIndicesBatchingDims := []
  startIndexMap := [0]
  indexVectorDim := 1
  sliceSizes := ![1]
  wf := gather_S1000000_S16000000x1_S16000000_n_0_n_n_0_1_1_wf
def gather_S1024_S16000000x1_S16000000_n_0_n_n_0_1_1 : GatherDims S1024 S16000000x1 S16000000 where
  offsetDims := []
  collapsedSliceDims := [0]
  operandBatchingDims := []
  startIndicesBatchingDims := []
  startIndexMap := [0]
  indexVectorDim := 1
  sliceSizes := ![1]
  wf := gather_S1024_S16000000x1_S16000000_n_0_n_n_0_1_1_wf
def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def gather_S1000000_S8192x1_S8192_n_0_n_n_0_1_1 : GatherDims S1000000 S8192x1 S8192 where
  offsetDims := []
  collapsedSliceDims := [0]
  operandBatchingDims := []
  startIndicesBatchingDims := []
  startIndexMap := [0]
  indexVectorDim := 1
  sliceSizes := ![1]
  wf := gather_S1000000_S8192x1_S8192_n_0_n_n_0_1_1_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1000000 : Shape := ⟨1, ![1000000]⟩
abbrev S16000000 : Shape := ⟨1, ![16000000]⟩
abbrev S1024 : Shape := ⟨1, ![1024]⟩
abbrev S8192 : Shape := ⟨1, ![8192]⟩
abbrev S_ : Shape := ⟨0, ![]⟩
abbrev S16000000x1 : Shape := ⟨2, ![16000000, 1]⟩
abbrev S1x1000000 : Shape := ⟨2, ![1, 1000000]⟩
abbrev S8x1000000 : Shape := ⟨2, ![8, 1000000]⟩
abbrev S1000000x1 : Shape := ⟨2, ![1000000, 1]⟩
abbrev S1000000x2 : Shape := ⟨2, ![1000000, 2]⟩
abbrev S8192x1 : Shape := ⟨2, ![8192, 1]⟩

abbrev nBuf : Space → Nat
  | .hbm => 118
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S16000000, .f32⟩
  | .hbm, ⟨2, _⟩ => ⟨S1000000, .f32⟩
  | .hbm, ⟨3, _⟩ => ⟨S1024, .f32⟩
  | .hbm, ⟨4, _⟩ => ⟨S16000000, .i32⟩
  | .hbm, ⟨5, _⟩ => ⟨S16000000, .i32⟩
  | .hbm, ⟨6, _⟩ => ⟨S16000000, .i1⟩
  | .hbm, ⟨7, _⟩ => ⟨S16000000, .i32⟩
  | .hbm, ⟨8, _⟩ => ⟨S1000000, .i32⟩
  | .hbm, ⟨9, _⟩ => ⟨S8192, .i32⟩
  | .hbm, ⟨10, _⟩ => ⟨S_, .f32⟩
  | .hbm, ⟨11, _⟩ => ⟨S1000000, .f32⟩
  | .hbm, ⟨12, _⟩ => ⟨S1000000, .f32⟩
  | .hbm, ⟨13, _⟩ => ⟨S_, .i32⟩
  | .hbm, ⟨14, _⟩ => ⟨S16000000, .i32⟩
  | .hbm, ⟨15, _⟩ => ⟨S16000000, .i1⟩
  | .hbm, ⟨16, _⟩ => ⟨S_, .i32⟩
  | .hbm, ⟨17, _⟩ => ⟨S16000000, .i32⟩
  | .hbm, ⟨18, _⟩ => ⟨S16000000, .i32⟩
  | .hbm, ⟨19, _⟩ => ⟨S16000000, .i32⟩
  | .hbm, ⟨20, _⟩ => ⟨S16000000x1, .i32⟩
  | .hbm, ⟨21, _⟩ => ⟨S16000000, .f32⟩
  | .hbm, ⟨22, _⟩ => ⟨S_, .i32⟩
  | .hbm, ⟨23, _⟩ => ⟨S16000000, .i32⟩
  | .hbm, ⟨24, _⟩ => ⟨S16000000, .i1⟩
  | .hbm, ⟨25, _⟩ => ⟨S_, .i32⟩
  | .hbm, ⟨26, _⟩ => ⟨S16000000, .i32⟩
  | .hbm, ⟨27, _⟩ => ⟨S16000000, .i32⟩
  | .hbm, ⟨28, _⟩ => ⟨S16000000, .i32⟩
  | .hbm, ⟨29, _⟩ => ⟨S16000000x1, .i32⟩
  | .hbm, ⟨30, _⟩ => ⟨S16000000, .f32⟩
  | .hbm, ⟨31, _⟩ => ⟨S16000000, .f32⟩
  | .hbm, ⟨32, _⟩ => ⟨S16000000, .f32⟩
  | .hbm, ⟨33, _⟩ => ⟨S_, .f32⟩
  | .hbm, ⟨34, _⟩ => ⟨S1000000, .f32⟩
  | .hbm, ⟨35, _⟩ => ⟨S16000000x1, .i32⟩
  | .hbm, ⟨36, _⟩ => ⟨S1000000, .f32⟩
  | .hbm, ⟨37, _⟩ => ⟨S1000000, .f32⟩
  | .hbm, ⟨38, _⟩ => ⟨S1000000, .f32⟩
  | .hbm, ⟨39, _⟩ => ⟨S_, .f32⟩
  | .hbm, ⟨40, _⟩ => ⟨S1000000, .f32⟩
  | .hbm, ⟨41, _⟩ => ⟨S1000000, .f32⟩
  | .hbm, ⟨42, _⟩ => ⟨S_, .f32⟩
  | .hbm, ⟨43, _⟩ => ⟨S1000000, .f32⟩
  | .hbm, ⟨44, _⟩ => ⟨S1000000, .i1⟩
  | .hbm, ⟨45, _⟩ => ⟨S_, .f32⟩
  | .hbm, ⟨46, _⟩ => ⟨S1000000, .f32⟩
  | .hbm, ⟨47, _⟩ => ⟨S1000000, .f32⟩
  | .hbm, ⟨48, _⟩ => ⟨S1000000, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1000000, .f32⟩
  | .hbm, ⟨53, _⟩ => ⟨S1000000, .f32⟩
  | .hbm, ⟨54, _⟩ => ⟨S_, .f32⟩
  | .hbm, ⟨55, _⟩ => ⟨S1000000, .f32⟩
  | .hbm, ⟨56, _⟩ => ⟨S1000000, .f32⟩
  | .hbm, ⟨57, _⟩ => ⟨S1000000, .f32⟩
  | .hbm, ⟨58, _⟩ => ⟨S1000000, .f32⟩
  | .hbm, ⟨59, _⟩ => ⟨S1000000, .f32⟩
  | .hbm, ⟨60, _⟩ => ⟨S_, .f32⟩
  | .hbm, ⟨61, _⟩ => ⟨S1000000, .f32⟩
  | .hbm, ⟨62, _⟩ => ⟨S1000000, .f32⟩
  | .hbm, ⟨63, _⟩ => ⟨S_, .f32⟩
  | .hbm, ⟨64, _⟩ => ⟨S1000000, .f32⟩
  | .hbm, ⟨65, _⟩ => ⟨S1000000, .f32⟩
  | .hbm, ⟨66, _⟩ => ⟨S_, .f32⟩
  | .hbm, ⟨67, _⟩ => ⟨S1000000, .f32⟩
  | .hbm, ⟨68, _⟩ => ⟨S1000000, .f32⟩
  | .hbm, ⟨69, _⟩ => ⟨S1000000, .f32⟩
  | .hbm, ⟨70, _⟩ => ⟨S1000000, .f32⟩
  | .hbm, ⟨71, _⟩ => ⟨S1000000, .i1⟩
  | .hbm, ⟨72, _⟩ => ⟨S1000000, .f32⟩
  | .hbm, ⟨73, _⟩ => ⟨S1000000, .f32⟩
  | .hbm, ⟨74, _⟩ => ⟨S1000000, .f32⟩
  | .hbm, ⟨75, _⟩ => ⟨S1000000, .f32⟩
  | .hbm, ⟨76, _⟩ => ⟨S1000000, .f32⟩
  | .hbm, ⟨77, _⟩ => ⟨S1000000, .f32⟩
  | .hbm, ⟨78, _⟩ => ⟨S1000000, .f32⟩
  | .hbm, ⟨79, _⟩ => ⟨S1000000, .f32⟩
  | .hbm, ⟨80, _⟩ => ⟨S1000000, .f32⟩
  | .hbm, ⟨81, _⟩ => ⟨S1x1000000, .f32⟩
  | .hbm, ⟨82, _⟩ => ⟨S1x1000000, .f32⟩
  | .hbm, ⟨83, _⟩ => ⟨S1x1000000, .f32⟩
  | .hbm, ⟨84, _⟩ => ⟨S1x1000000, .f32⟩
  | .hbm, ⟨85, _⟩ => ⟨S1x1000000, .f32⟩
  | .hbm, ⟨86, _⟩ => ⟨S1x1000000, .f32⟩
  | .hbm, ⟨87, _⟩ => ⟨S1x1000000, .f32⟩
  | .hbm, ⟨88, _⟩ => ⟨S1x1000000, .f32⟩
  | .hbm, ⟨89, _⟩ => ⟨S8x1000000, .f32⟩
  | .hbm, ⟨90, _⟩ => ⟨S1000000, .i32⟩
  | .hbm, ⟨91, _⟩ => ⟨S_, .i32⟩
  | .hbm, ⟨92, _⟩ => ⟨S1000000, .i32⟩
  | .hbm, ⟨93, _⟩ => ⟨S1000000, .i1⟩
  | .hbm, ⟨94, _⟩ => ⟨S_, .i32⟩
  | .hbm, ⟨95, _⟩ => ⟨S1000000, .i32⟩
  | .hbm, ⟨96, _⟩ => ⟨S1000000, .i32⟩
  | .hbm, ⟨97, _⟩ => ⟨S1000000, .i32⟩
  | .hbm, ⟨98, _⟩ => ⟨S_, .i32⟩
  | .hbm, ⟨99, _⟩ => ⟨S1000000, .i32⟩
  | .hbm, ⟨100, _⟩ => ⟨S1000000, .i1⟩
  | .hbm, ⟨101, _⟩ => ⟨S_, .i32⟩
  | .hbm, ⟨102, _⟩ => ⟨S1000000, .i32⟩
  | .hbm, ⟨103, _⟩ => ⟨S1000000, .i32⟩
  | .hbm, ⟨104, _⟩ => ⟨S1000000, .i32⟩
  | .hbm, ⟨105, _⟩ => ⟨S1000000x1, .i32⟩
  | .hbm, ⟨106, _⟩ => ⟨S1000000x1, .i32⟩
  | .hbm, ⟨107, _⟩ => ⟨S1000000x2, .i32⟩
  | .hbm, ⟨108, _⟩ => ⟨S1000000, .f32⟩
  | .hbm, ⟨109, _⟩ => ⟨S_, .i32⟩
  | .hbm, ⟨110, _⟩ => ⟨S8192, .i32⟩
  | .hbm, ⟨111, _⟩ => ⟨S8192, .i1⟩
  | .hbm, ⟨112, _⟩ => ⟨S_, .i32⟩
  | .hbm, ⟨113, _⟩ => ⟨S8192, .i32⟩
  | .hbm, ⟨114, _⟩ => ⟨S8192, .i32⟩
  | .hbm, ⟨115, _⟩ => ⟨S8192, .i32⟩
  | .hbm, ⟨116, _⟩ => ⟨S8192x1, .i32⟩
  | .hbm, ⟨117, _⟩ => ⟨S8192, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call1_cst : Ref sig .tc := ⟨.hbm, 39, rfl⟩
abbrev main_call1_v0 : Ref sig .tc := ⟨.hbm, 40, rfl⟩
abbrev main_v23 : Ref sig .tc := ⟨.hbm, 41, rfl⟩
abbrev main_call2_cst : Ref sig .tc := ⟨.hbm, 42, rfl⟩
abbrev main_call2_v0 : Ref sig .tc := ⟨.hbm, 43, rfl⟩
abbrev main_call2_v1 : Ref sig .tc := ⟨.hbm, 44, rfl⟩
abbrev main_call2_cst_0 : Ref sig .tc := ⟨.hbm, 45, rfl⟩
abbrev main_call2_v2 : Ref sig .tc := ⟨.hbm, 46, rfl⟩
abbrev main_call2_v3 : Ref sig .tc := ⟨.hbm, 47, rfl⟩
abbrev main_v24 : Ref sig .tc := ⟨.hbm, 48, rfl⟩
abbrev main_cst_4 : Ref sig .tc := ⟨.hbm, 49, rfl⟩
abbrev main_cst_5 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_6 : Ref sig .tc := ⟨.hbm, 60, rfl⟩
abbrev main_v29 : Ref sig .tc := ⟨.hbm, 61, rfl⟩
abbrev main_v30 : Ref sig .tc := ⟨.hbm, 62, rfl⟩
abbrev main_cst_7 : Ref sig .tc := ⟨.hbm, 63, rfl⟩
abbrev main_v31 : Ref sig .tc := ⟨.hbm, 64, rfl⟩
abbrev main_v32 : Ref sig .tc := ⟨.hbm, 65, rfl⟩
abbrev main_call4_cst : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_call4_v5 : Ref sig .tc := ⟨.hbm, 72, rfl⟩
abbrev main_call4_v6 : Ref sig .tc := ⟨.hbm, 73, rfl⟩
abbrev main_call4_v7 : Ref sig .tc := ⟨.hbm, 74, rfl⟩
abbrev main_call4_v8 : Ref sig .tc := ⟨.hbm, 75, rfl⟩
abbrev main_call4_v9 : Ref sig .tc := ⟨.hbm, 76, rfl⟩
abbrev main_call4_v10 : Ref sig .tc := ⟨.hbm, 77, rfl⟩
abbrev main_call4_v11 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_c_8 : Ref sig .tc := ⟨.hbm, 91, rfl⟩
abbrev main_v45 : Ref sig .tc := ⟨.hbm, 92, rfl⟩
abbrev main_v46 : Ref sig .tc := ⟨.hbm, 93, rfl⟩
abbrev main_c_9 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_c_10 : Ref sig .tc := ⟨.hbm, 98, rfl⟩
abbrev main_v50 : Ref sig .tc := ⟨.hbm, 99, rfl⟩
abbrev main_v51 : Ref sig .tc := ⟨.hbm, 100, rfl⟩
abbrev main_c_11 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_c_12 : Ref sig .tc := ⟨.hbm, 109, rfl⟩
abbrev main_v59 : Ref sig .tc := ⟨.hbm, 110, rfl⟩
abbrev main_v60 : Ref sig .tc := ⟨.hbm, 111, rfl⟩
abbrev main_c_13 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S1000000_S1x1000000_1 : S1000000.BroadcastsInDim S1x1000000 (![1] : Fin 1 → Fin S1x1000000.rank)
  concatenates_S1x1000000_S1x1000000_S1x1000000_S1x1000000_S1x1000000_S1x1000000_S1x1000000_S1x1000000_S8x1000000_d0 : Shape.Concatenates [S1x1000000, S1x1000000, S1x1000000, S1x1000000, S1x1000000, S1x1000000, S1x1000000, S1x1000000] S8x1000000 0
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  bcast_S_S8192 : S_.BroadcastsInDim S8192 (![] : Fin 0 → Fin S8192.rank)
  bcast_S8192_S8192x1_0 : S8192.BroadcastsInDim S8192x1 (![0] : Fin 1 → Fin S8192x1.rank)
  gather_S1000000_S16000000x1_S16000000_n_0_n_n_0_1_1_wf : GatherDims.WF S1000000 S16000000x1 S16000000 [] [0] [] [0] [] 1 ![1]
  gather_S1024_S16000000x1_S16000000_n_0_n_n_0_1_1_wf : GatherDims.WF S1024 S16000000x1 S16000000 [] [0] [] [0] [] 1 ![1]
  scatter_S1000000_S16000000x1_S16000000_n_0_0_1_wf : ScatterDims.WF S1000000 S16000000x1 S16000000 [] [0] [0] 1
  gather_S8x1000000_S1000000x2_S1000000_n_01_n_n_01_1_11_wf : GatherDims.WF S8x1000000 S1000000x2 S1000000 [] [0, 1] [] [0, 1] [] 1 ![1, 1]
  gather_S1000000_S8192x1_S8192_n_0_n_n_0_1_1_wf : GatherDims.WF S1000000 S8192x1 S8192 [] [0] [] [0] [] 1 ![1]

variable [Facts₀]

def gather_S1000000_S16000000x1_S16000000_n_0_n_n_0_1_1 : GatherDims S1000000 S16000000x1 S16000000 where
  offsetDims := []
  collapsedSliceDims := [0]
  operandBatchingDims := []
  startIndicesBatchingDims := []
  startIndexMap := [0]
  indexVectorDim := 1
  sliceSizes := ![1]
  wf := gather_S1000000_S16000000x1_S16000000_n_0_n_n_0_1_1_wf
def gather_S1024_S16000000x1_S16000000_n_0_n_n_0_1_1 : GatherDims S1024 S16000000x1 S16000000 where
  offsetDims := []
  collapsedSliceDims := [0]
  operandBatchingDims := []
  startIndicesBatchingDims := []
  startIndexMap := [0]
  indexVectorDim := 1
  sliceSizes := ![1]
  wf := gather_S1024_S16000000x1_S16000000_n_0_n_n_0_1_1_wf
def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def gather_S8x1000000_S1000000x2_S1000000_n_01_n_n_01_1_11 : GatherDims S8x1000000 S1000000x2 S1000000 where
  offsetDims := []
  collapsedSliceDims := [0, 1]
  operandBatchingDims := []
  startIndicesBatchingDims := []
  startIndexMap := [0, 1]
  indexVectorDim := 1
  sliceSizes := ![1, 1]
  wf := gather_S8x1000000_S1000000x2_S1000000_n_01_n_n_01_1_11_wf
def gather_S1000000_S8192x1_S8192_n_0_n_n_0_1_1 : GatherDims S1000000 S8192x1 S8192 where
  offsetDims := []
  collapsedSliceDims := [0]
  operandBatchingDims := []
  startIndicesBatchingDims := []
  startIndexMap := [0]
  indexVectorDim := 1
  sliceSizes := ![1]
  wf := gather_S1000000_S8192x1_S8192_n_0_n_n_0_1_1_wf

class Facts : Prop extends Facts₀ where

variable [Facts]
-- ==== Proof.PreRange.lean ====
/-
  The three index inputs the precondition constrains, read back from it. The precondition is a conjunction of
  whole-array tests reduced by "and"; it holds exactly when every test is 1 at every position. For the edge
  sources, the edge input positions and the activation ids the test at a position is
  "0 ≤ w (signed) and w < n (signed)" for n = 1000000, 1024, 8: such a word, read unsigned, is below n.
-/
import proofs.«413046_j43705587204567_2_alg».proof.Proof.Gen.Pre_finite_inputs
import Idealize.ShloMosaic.Lib.ReduceAll
import Idealize.ShloMosaic.Lib.StableHlo.Predicate

noncomputable section

namespace Cert.PreRange

open Idealize.ShloMosaic Cert.Pre_finite_inputs

variable {F : FTy → Type} [FloatOps F]

/-- The result of the precondition is a scalar: it has one index, the empty one. -/
instance scalarIdx : Subsingleton S_.Idx := ⟨fun _ _ => funext fun d => d.elim0⟩

/-- A 32-bit word w with 0 ≤ w and w < n, both read signed, where n < 2³¹: its sign bit is clear (0 ≤ w), so its
    signed and unsigned readings agree, and n reads the same both ways too; hence w < n unsigned. -/
theorem word_lt (w : BitVec 32) (n : Nat) (hn : n < 2 ^ 31)
    (h : IntOp.andi (IntOp.cmpi .sge w 0#32) (IntOp.cmpi .slt w (BitVec.ofNat 32 n)) = 1#1) : w.toNat < n := by
  obtain ⟨h0, h1⟩ := IntOp.andi_eq_one.1 h
  have hw : 2 * w.toNat < 2 ^ 32 := (Scalar.nonneg_iff w).1 h0
  rw [IntOp.cmpi_slt, StableHlo.Predicate.toInt_ofNat_small n hn, BitVec.toInt_eq_toNat_of_lt hw] at h1
  exact_mod_cast h1

/-- Where the precondition holds, every edge source is a neuron number, every edge input position a position of the
    input vector, and every activation id one of the eight activations. -/
theorem ranges (a0 : FVec F S1000000 .f32) (a1 : FVec F S16000000 .f32) (a2 : FVec F S1000000 .f32) (a3 : FVec F S1024 .f32)
    (a4 a5 : IVec S16000000 32) (a6 : IVec S16000000 1) (a7 : IVec S16000000 32) (a8 : IVec S1000000 32) (a9 : IVec S8192 32)
    (h : Cert.Pre_finite_inputs.fn (F := F) a0 a1 a2 a3 a4 a5 a6 a7 a8 a9 = fun _ => 1#1) :
    (∀ e, (a4 e).toNat < 1000000) ∧ (∀ e, (a7 e).toNat < 1024) ∧ (∀ n, (a8 n).toNat < 8) := by
  -- the precondition at its one index
  have hj : Cert.Pre_finite_inputs.fn (F := F) a0 a1 a2 a3 a4 a5 a6 a7 a8 a9 (fun d => d.elim0) = 1#1 := congrFun h _
  unfold Cert.Pre_finite_inputs.fn Cert.Pre_finite_inputs.fn_part1 Cert.Pre_finite_inputs.fn_part2 at hj
  dsimp only at hj
  -- the outermost three conjuncts are the three range tests, each reduced by "and" over its whole array
  obtain ⟨hj, h8⟩ := IntOp.andi_eq_one.1 hj
  obtain ⟨hj, h7⟩ := IntOp.andi_eq_one.1 hj
  obtain ⟨-, h4⟩ := IntOp.andi_eq_one.1 hj
  -- a reduce by "and" that is 1 met a 1 at every position; there the test is the two signed comparisons of the word
  exact ⟨fun e => word_lt (a4 e) 1000000 (by decide) (Host.reduce_andi_all _ _ _ _ _ h4 e),
    fun e => word_lt (a7 e) 1024 (by decide) (Host.reduce_andi_all _ _ _ _ _ h7 e),
    fun n => word_lt (a8 n) 8 (by decide) (Host.reduce_andi_all _ _ _ _ _ h8 n)⟩

end Cert.PreRange

end
-- ==== Proof.ActBody.lean ====
/-
  One neuron update, as a function of arrays of any shape, entry by entry: the sum x = (p + q) + b of a neuron's
  scaled previous state p, its summed messages q and its bias b, then the activation its id k names, chosen by a
  chain of selections that starts from x itself (id 0, and any id that is not 1 … 7) and is overridden in turn by
    1: max(x, 0)    2: x where x ≥ 0, else 0.01·x    3: min(1, max(0, x))    4: tanh x    5: 1 / (1 + exp(-x))
    6: max(x, 0) + log(1 + exp(0 - |x - 0|)), behind a test "x - 0 is not itself" that would choose x + 0    7: |x|.
  Every operation acts entry by entry, so reading the arguments through any map of indices and then updating is
  updating and then reading through the map.
-/
import Idealize.ShloMosaic.PureOps

noncomputable section

namespace Cert.Act

open Idealize.ShloMosaic

variable {F : FTy → Type} [FloatOps F] {s : Shape}

/-- The activation id k selects, of the sum x. -/
def sel (x : FVec F s .f32) (k : IVec s 32) : FVec F s .f32 :=
  let z : FVec F s .f32 := broadcast s (Scalar.ofBits .f32 0x00000000#32)
  let v14 := select (cmpi .eq k (broadcast s 1#32)) (maximumf x z) x
  let v21 := select (cmpf .oge x z) x (mulf (broadcast s (Scalar.ofBits .f32 0x3C23D70A#32)) x)
  let v22 := select (cmpi .eq k (broadcast s 2#32)) v21 v14
  let v28 := minimumf (broadcast s (Scalar.ofBits .f32 0x3F800000#32)) (maximumf z x)
  let v29 := select (cmpi .eq k (broadcast s 3#32)) v28 v22
  let v33 := select (cmpi .eq k (broadcast s 4#32)) (tanh x) v29
  let v37 := select (cmpi .eq k (broadcast s 5#32)) (logistic x) v33
  let v43 := subf x z
  let v53 := select (cmpf .one v43 v43) (addf x z) (addf (maximumf x z) (log1p (exp (subf z (absf v43)))))
  let v54 := select (cmpi .eq k (broadcast s 6#32)) v53 v37
  select (cmpi .eq k (broadcast s 7#32)) (absf x) v54

/-- The updated state: the activation of the sum. -/
def update (p q b : FVec F s .f32) (k : IVec s 32) : FVec F s .f32 := sel (addf (addf p q) b) k

/-- Updating commutes with reading the four arrays through a map of indices. -/
theorem update_comp {s' : Shape} (e : s'.Idx → s.Idx) (p q b : FVec F s .f32) (k : IVec s 32) :
    update (fun j => p (e j)) (fun j => q (e j)) (fun j => b (e j)) (fun j => k (e j)) = fun j => update p q b k (e j) := rfl

end Cert.Act

end
-- ==== Proof.KernelValue.lean ====
/-
  What the kernel's one launch leaves in its [8000, 128] result array. The launch has two grid points; point t
  fetches rows 4000·t … 4000·t + 3999 of each of its four operand arrays, updates them entry by entry
  (`Cert.Act.update`) and writes the block back to the same rows of the result. The two blocks tile the result,
  so the result array ends as the update of the four operand arrays taken whole.
-/
import proofs.«413046_j43705587204567_2_alg».proof.Proof.Gen.KernelIdeal.Frame
import proofs.«413046_j43705587204567_2_alg».proof.Proof.ActBody
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The body's one store is the update of its four loaded blocks. -/
theorem pay2_eq (x0 x1 x2 : Vec F S4000x128 .f32) : k0_pay2 x0 x1 x2 = addf (addf x0 x1) x2 := by
  unfold k0_pay2
  simp only [shapeCast_self]

theorem pay3_eq (x3 : Vec F S4000x128 .i32) : k0_pay3 x3 = x3 := by
  unfold k0_pay3
  simp only [shapeCast_self]

theorem pay_eq (x0 x1 x2 : Vec F S4000x128 .f32) (x3 : Vec F S4000x128 .i32) :
    k0_pay1 (k0_pay2 x0 x1 x2) (k0_pay3 x3) (k0_pay4 x0 x1 x2 x3) (k0_pay5 x3) = Cert.Act.update x0 x1 x2 x3 := by
  unfold k0_pay1 k0_pay4 k0_pay5
  simp only [pay2_eq, pay3_eq]
  rfl

/-- The four operand arrays as the launch finds them. -/
abbrev opP (c : Dev nD) : Vec F S8000x128 .f32 := V m c main_v10
abbrev opQ (c : Dev nD) : Vec F S8000x128 .f32 := V m c main_v12
abbrev opB (c : Dev nD) : Vec F S8000x128 .f32 := V m c main_v14
abbrev opK (c : Dev nD) : Vec F S8000x128 .i32 := V m c main_v16

/-- The result array: the update of the operand arrays taken whole. -/
abbrev G (c : Dev nD) : Vec F S8000x128 .f32 := Cert.Act.update (opP m c) (opQ m c) (opB m c) (opK m c)

/-- Every window's block index at a point is the point's number along the rows and 0 along the columns, the result
    window's included; and each half of the rows is some point's. -/
theorem idx_facts : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_4.index t (0 : Fin 2) ∧ win0_2.index t (1 : Fin 2) = win0_4.index t (1 : Fin 2)
    ∧ win0_3.index t (0 : Fin 2) = win0_4.index t (0 : Fin 2) ∧ win0_3.index t (1 : Fin 2) = win0_4.index t (1 : Fin 2) :=
  (by decide +kernel : ∀ t : Fin grid0.N, _)

theorem idx_onto : ∀ q0 : Fin 2, ∃ t : Fin cfg0.N, win0_4.index t = ![q0.val, 0] :=
  (by decide +kernel : ∀ q0 : Fin 2, ∃ t : Fin grid0.N, win0_4.index t = ![q0.val, 0])

/-- Each operand's block at a point sits where the result's block sits. -/
theorem emb0 (t : Fin cfg0.N) (j : S4000x128.Idx) : ((cfg0.win 0).blk t).view.emb j = ((cfg0.win 4).blk t).view.emb j := by
  obtain ⟨e0, e1, -⟩ := idx_facts t
  funext a; apply Fin.ext
  match a with
  | ⟨0, _⟩ => show win0_0.index t (0 : Fin 2) * 4000 + 1 * (j 0).val = win0_4.index t (0 : Fin 2) * 4000 + 1 * (j 0).val; omega
  | ⟨1, _⟩ => show win0_0.index t (1 : Fin 2) * 128 + 1 * (j 1).val = win0_4.index t (1 : Fin 2) * 128 + 1 * (j 1).val; omega
theorem emb1 (t : Fin cfg0.N) (j : S4000x128.Idx) : ((cfg0.win 1).blk t).view.emb j = ((cfg0.win 4).blk t).view.emb j := by
  obtain ⟨-, -, e0, e1, -⟩ := idx_facts t
  funext a; apply Fin.ext
  match a with
  | ⟨0, _⟩ => show win0_1.index t (0 : Fin 2) * 4000 + 1 * (j 0).val = win0_4.index t (0 : Fin 2) * 4000 + 1 * (j 0).val; omega
  | ⟨1, _⟩ => show win0_1.index t (1 : Fin 2) * 128 + 1 * (j 1).val = win0_4.index t (1 : Fin 2) * 128 + 1 * (j 1).val; omega
theorem emb2 (t : Fin cfg0.N) (j : S4000x128.Idx) : ((cfg0.win 2).blk t).view.emb j = ((cfg0.win 4).blk t).view.emb j := by
  obtain ⟨-, -, -, -, e0, e1, -⟩ := idx_facts t
  funext a; apply Fin.ext
  match a with
  | ⟨0, _⟩ => show win0_2.index t (0 : Fin 2) * 4000 + 1 * (j 0).val = win0_4.index t (0 : Fin 2) * 4000 + 1 * (j 0).val; omega
  | ⟨1, _⟩ => show win0_2.index t (1 : Fin 2) * 128 + 1 * (j 1).val = win0_4.index t (1 : Fin 2) * 128 + 1 * (j 1).val; omega
theorem emb3 (t : Fin cfg0.N) (j : S4000x128.Idx) : ((cfg0.win 3).blk t).view.emb j = ((cfg0.win 4).blk t).view.emb j := by
  obtain ⟨-, -, -, -, -, -, e0, e1⟩ := idx_facts t
  funext a; apply Fin.ext
  match a with
  | ⟨0, _⟩ => show win0_3.index t (0 : Fin 2) * 4000 + 1 * (j 0).val = win0_4.index t (0 : Fin 2) * 4000 + 1 * (j 0).val; omega
  | ⟨1, _⟩ => show win0_3.index t (1 : Fin 2) * 128 + 1 * (j 1).val = win0_4.index t (1 : Fin 2) * 128 + 1 * (j 1).val; omega

/-- Each operand's block at a point, read where the result's block sits. -/
theorem blkP (c : Dev nD) (t : Fin cfg0.N) :
    (iblk m c 0 t : Vec F S4000x128 .f32) = fun j => opP m c (((cfg0.win 4).blk t).view.emb j) := by
  funext j
  show opP m c (((cfg0.win 0).blk t).view.emb j) = _
  rw [emb0]
theorem blkQ (c : Dev nD) (t : Fin cfg0.N) :
    (iblk m c 1 t : Vec F S4000x128 .f32) = fun j => opQ m c (((cfg0.win 4).blk t).view.emb j) := by
  funext j
  show opQ m c (((cfg0.win 1).blk t).view.emb j) = _
  rw [emb1]
theorem blkB (c : Dev nD) (t : Fin cfg0.N) :
    (iblk m c 2 t : Vec F S4000x128 .f32) = fun j => opB m c (((cfg0.win 4).blk t).view.emb j) := by
  funext j
  show opB m c (((cfg0.win 2).blk t).view.emb j) = _
  rw [emb2]
theorem blkK (c : Dev nD) (t : Fin cfg0.N) :
    (iblk m c 3 t : Vec F S4000x128 .i32) = fun j => opK m c (((cfg0.win 4).blk t).view.emb j) := by
  funext j
  show opK m c (((cfg0.win 3).blk t).view.emb j) = _
  rw [emb3]

/-- The update of four arrays' blocks at a point, put where the result's block sits, is that block of the arrays' update. -/
theorem cut_update (t : Fin cfg0.N) (p q b : Vec F S8000x128 .f32) (k : Vec F S8000x128 .i32) :
    (cfg0.win 4).cut (grid0.coords t) (Cert.Act.update (fun j => p (((cfg0.win 4).blk t).view.emb j))
        (fun j => q (((cfg0.win 4).blk t).view.emb j)) (fun j => b (((cfg0.win 4).blk t).view.emb j))
        (fun j => k (((cfg0.win 4).blk t).view.emb j)))
      = ((cfg0.win 4).blk t).view.read (Elt F) (Cert.Act.update p q b k) := by
  funext j
  rfl

/-- What point t writes back is block t of the result array `G`. -/
theorem flushed_eq (c : Dev nD) (t : Fin cfg0.N) :
    (dats m 0 c).flushed 4 t = ((cfg0.win 4).blk t).view.read (Elt F) (G m c) := by
  show (cfg0.win 4).cut (grid0.coords t) ((dats m 0 c).after 4 t) = _
  rw [after0_4]
  unfold out0_4
  rw [View.canon_unit_zero hz]
  simp only [View.ld_unit_zero (S := S4000x128) hz]
  rw [pay_eq, blkP, blkQ, blkB, blkK]
  exact cut_update t (opP m c) (opQ m c) (opB m c) (opK m c)

/-- An index of the result array is in point t's block iff each coordinate is in the block's range. -/
theorem mem_blk (t : Fin cfg0.N) (i : S8000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v17).slice (win0_4.rect t)).set ↔ _
  rw [View.set_slice_whole, Rect.mem_set_unit]
  exact Iff.rfl

/-- The two blocks cover the result array: row r is in the block of point r / 4000. -/
theorem cover (i : S8000x128.Idx) : ∃ t : Fin cfg0.N, (cfg0.win 4).flush t = true ∧ i ∈ ((cfg0.win 4).blk t).view.set := by
  have hi0 : (i 0).val < 8000 := (i 0).isLt
  have hi1 : (i 1).val < 128 := (i 1).isLt
  obtain ⟨t, ht⟩ := idx_onto ⟨(i 0).val / 4000, by omega⟩
  have q0 : win0_4.index t (0 : Fin 2) = (i 0).val / 4000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- The result array after the launch. -/
theorem final (c : Dev nD) : (dats m 0 c).arrAt 4 cfg0.N = G m c :=
  (dats m 0 c).arrAt_eq_of_cover 4 (G m c) (fun t _ => flushed_eq m c t) cover

end Cert.KernelIdeal.Hand

end
-- ==== Proof.KernelTerm.lean ====
/-
  The kernel program's host side, stage by stage, as pure terms of its argument arrays.
  Before the launch: the previous state scaled by 0.33; for each edge its source's scaled state or its entry of the
  input vector, each read by a take that wraps an index below zero, reads the table at the wrapped index and keeps
  the value only where the wrapped index is inside the table (elsewhere a fill value); the messages summed at their
  destinations; then each of the four per-neuron arrays (scaled state, summed messages, biases, activation ids)
  padded with zeros to 1,024,000 entries and laid out as 8000 rows of 128.
  After the launch: the [8000, 128] result read as 1,024,000 entries, its first 1,000,000 kept, and the
  requested neurons taken from them.
-/
import proofs.«413046_j43705587204567_2_alg».proof.Proof.Gen.KernelIdeal

noncomputable section

namespace Cert.KernelIdeal.Hand

open Cert.KernelIdeal Cert.KernelIdeal.Gen Idealize.ShloMosaic

variable {F : FTy → Type} [FloatOps F]

/-- The previous state scaled by the refractory factor. -/
def prev (state : FVec F S1000000 .f32) : FVec F S1000000 .f32 :=
  mulf (broadcastInDim S1000000 ![] bcast_S_S1000000 (constant S_ .f32 0x3EA8F5C3#32)) state

/-- An edge index array with "i < 0 means i + n". -/
def wrapE (n : BitVec 32) (i : IVec S16000000 32) : IVec S16000000 32 :=
  select (cmpi .slt i (broadcastInDim S16000000 ![] bcast_S_S16000000 (constantI S_ 32 0#32)))
    (addi i (broadcastInDim S16000000 ![] bcast_S_S16000000 (constantI S_ 32 n))) i

/-- An edge array as a one-column table of start indices. -/
def colE (i : IVec S16000000 32) : IVec S16000000x1 32 :=
  broadcastInDim S16000000x1 ![0] bcast_S16000000_S16000000x1_0 i

/-- Where a start index is inside a table whose last position is `hi`: 0 ≤ i and i ≤ hi, over the index's one
    component. -/
def inb (hi : BitVec 32) (i : IVec S16000000x1 32) : IVec S16000000 1 :=
  Host.reduce IntOp.andi
    (andi (cmpi .sge i (broadcastInDim S16000000x1 ![] bcast_S_S16000000x1 (constantI S_ 32 0#32)))
      (cmpi .sle i (broadcastInDim S16000000x1 ![0, 1] bcast_S1x1_S16000000x1_0_1
        (broadcastInDim S1x1 ![1] bcast_S1_S1x1_1 (constantI S1 32 hi)))))
    (constantI S_ 1 1#1) reducesTo_S16000000x1_S16000000_d1 h_S_

/-- The fill value of a take, at every edge. -/
def fillE : FVec F S16000000 .f32 := broadcastInDim S16000000 ![] bcast_S_S16000000 (constant S_ .f32 0x7FC00000#32)

/-- The take from the neurons' table. -/
def take1 (x : FVec F S1000000 .f32) (i : IVec S16000000 32) : FVec F S16000000 .f32 :=
  select (inb 999999#32 (colE (wrapE 1000000#32 i)))
    (Host.gather gather_S1000000_S16000000x1_S16000000_n_0_n_n_0_1_1 x (colE (wrapE 1000000#32 i))) fillE

/-- The take from the input vector. -/
def take2 (x : FVec F S1024 .f32) (i : IVec S16000000 32) : FVec F S16000000 .f32 :=
  select (inb 1023#32 (colE (wrapE 1024#32 i)))
    (Host.gather gather_S1024_S16000000x1_S16000000_n_0_n_n_0_1_1 x (colE (wrapE 1024#32 i))) fillE

/-- What each edge reads. -/
def fromState (state : FVec F S1000000 .f32) (inp : FVec F S1024 .f32) (src : IVec S16000000 32)
    (rec_mask : IVec S16000000 1) (input_idx : IVec S16000000 32) : FVec F S16000000 .f32 :=
  select rec_mask (take1 (prev state) src) (take2 inp input_idx)

/-- The zero array over the neurons. -/
def zeros : FVec F S1000000 .f32 := broadcastInDim S1000000 ![] bcast_S_S1000000 (constant S_ .f32 0x00000000#32)

/-- The messages summed at their destinations. -/
def seg (state : FVec F S1000000 .f32) (weights : FVec F S16000000 .f32) (inp : FVec F S1024 .f32)
    (src dst : IVec S16000000 32) (rec_mask : IVec S16000000 1) (input_idx : IVec S16000000 32) : FVec F S1000000 .f32 :=
  Host.scatterAdd scatter_S1000000_S16000000x1_S16000000_n_0_0_1 zeros (colE dst)
    (mulf weights (fromState state inp src rec_mask input_idx))

/-- A float neuron array padded with zeros to 1,024,000 entries. -/
def padF (x : FVec F S1000000 .f32) : FVec F S1024000 .f32 :=
  pad S1024000 ![0] ![24000] ![0] x (sitofp .f32 (constantI S_ 32 0#32)) pads_S1000000_S1024000_0240000 h_S_

/-- An integer neuron array padded with zeros to 1,024,000 entries. -/
def padI (x : IVec S1000000 32) : IVec S1024000 32 :=
  pad S1024000 ![0] ![24000] ![0] x (id (constantI S_ 32 0#32)) pads_S1000000_S1024000_0240000 h_S_

/-- 1,024,000 entries as 8000 rows of 128. -/
def tile {α : Type} (x : S1024000.Idx → α) : S8000x128.Idx → α := shapeCast S8000x128 x shapeCasts_S1024000_S8000x128

/-- 8000 rows of 128 as 1,024,000 entries, the first 1,000,000 kept. -/
def untile {α : Type} (y : S8000x128.Idx → α) : S1000000.Idx → α :=
  extractStridedSlice S1000000 ![0] (shapeCast S1024000 y shapeCasts_S8000x128_S1024000) slices_S1024000_S1000000_0

/-- The requested neurons as a one-column table of start indices, "i < 0 means i + N". -/
def outIdx (out_ids : IVec S8192 32) : IVec S8192x1 32 :=
  broadcastInDim S8192x1 ![0] bcast_S8192_S8192x1_0
    (select (cmpi .slt out_ids (broadcastInDim S8192 ![] bcast_S_S8192 (constantI S_ 32 0#32)))
      (addi out_ids (broadcastInDim S8192 ![] bcast_S_S8192 (constantI S_ 32 1000000#32))) out_ids)

end Cert.KernelIdeal.Hand

end
-- ==== Proof.KernelHost.lean ====
/-
  What the launch's four operand arrays hold when the launch begins, read off the host operations before it:
  the scaled state, the summed messages, the biases and the activation ids, each padded with zeros to
  1,024,000 entries and laid out as 8000 rows of 128.
-/
import proofs.«413046_j43705587204567_2_alg».proof.Proof.Gen.KernelIdeal.Frame
import proofs.«413046_j43705587204567_2_alg».proof.Proof.KernelTerm
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]
variable (m : (ℓ : Loc nD τ sig) → Buf (Elt F) ℓ)

set_option maxHeartbeats 2000000 in
/-- The first operand: the scaled state, padded and laid out. -/
theorem V10_eq (c : Dev nD) :
    (V m c main_v10 : Vec F S8000x128 .f32) = tile (padF (prev (m ((c : Thread nD τ).loc main_arg0)))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-- Contents carried to a typed reference's buffer and back are themselves. -/
theorem ofBuf_toBuf {sig : RefSig} {Val : EltTy → Type} {T : BufTy} (x : TRef sig T) (v : T.Contents Val) :
    x.ofBuf (x.toBuf v) = v := by
  obtain ⟨r, h1, h2, h3⟩ := x
  subst h1
  rfl

-- the reductions, reads and sums over the edges stay folded: the two sides are compared stage by stage, never inside them
attribute [local irreducible] Host.reduce Host.gather Host.scatterAdd pad in
set_option maxHeartbeats 2000000 in
/-- The second operand, read at its own type: the summed messages, padded and laid out. -/
theorem V12_cast (c : Dev nD) :
    (TRef.of main_v12 : TRef sig ⟨S8000x128, .f32⟩).ofBuf (V m c main_v12)
      = tile (padF (seg (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg6)) (m ((c : Thread nD τ).loc main_arg7)))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [ofBuf_toBuf]
  rfl

/-- The second operand: the summed messages, padded and laid out. -/
theorem V12_eq (c : Dev nD) :
    (V m c main_v12 : Vec F S8000x128 .f32)
      = tile (padF (seg (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg6)) (m ((c : Thread nD τ).loc main_arg7)))) := by
  have h := V12_cast m c
  generalize V m c main_v12 = W at h ⊢
  exact h

set_option maxHeartbeats 2000000 in
/-- The third operand: the biases, padded and laid out. -/
theorem V14_eq (c : Dev nD) :
    (V m c main_v14 : Vec F S8000x128 .f32) = tile (padF (m ((c : Thread nD τ).loc main_arg2))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
/-- The fourth operand: the activation ids, padded and laid out. -/
theorem V16_eq (c : Dev nD) :
    (V m c main_v16 : Vec F S8000x128 .i32) = tile (padI (m ((c : Thread nD τ).loc main_arg8))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

end Cert.KernelIdeal.Hand

end
-- ==== Proof.KernelRun.lean ====
/-
  The kernel program's run, read: its result is the requested entries of the updated state, where the updated state
  is the neuron update (`Cert.Act.update`) of the scaled state, the summed messages, the biases and the ids.
  The launch works on the four arrays padded to 1,024,000 entries and laid out as 8000 rows of 128; the host then
  reads the result back as 1,024,000 entries and keeps the first 1,000,000. The update acts entry by entry, so
  reading back the update of the laid-out arrays is the update of the arrays read back; and a padded array laid
  out, read back and cut to its first 1,000,000 entries is the array.
-/
import proofs.«413046_j43705587204567_2_alg».proof.Proof.KernelValue
import proofs.«413046_j43705587204567_2_alg».proof.Proof.KernelHost
import Idealize.ShloMosaic.Lib.KernelVsHost

set_option maxRecDepth 16384

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ) (ρ : Dev nD → PrngReg)

/-- Reading back commutes with the update. -/
theorem untile_update (p q b : Vec F S8000x128 .f32) (k : Vec F S8000x128 .i32) :
    untile (Cert.Act.update p q b k) = Cert.Act.update (untile p) (untile q) (untile b) (untile k) := rfl

/-- Laid out and read back, 1,024,000 entries are themselves; what is left is the cut to the first 1,000,000. -/
theorem untile_tile {α : Type} (x : S1024000.Idx → α) :
    untile (tile x) = extractStridedSlice S1000000 ![0] x slices_S1024000_S1000000_0 := by
  unfold untile tile
  rw [shapeCast_shapeCast]

/-- The first 1,000,000 entries of an array padded behind are the array. -/
theorem slice_pad {α : Type} (x : S1000000.Idx → α) {u : Shape} (v : u.Idx → α) (hu : 0 < u.numel) :
    extractStridedSlice S1000000 ![0] (pad S1024000 ![0] ![24000] ![0] x v pads_S1000000_S1024000_0240000 hu)
      slices_S1024000_S1000000_0 = x := by
  funext n
  unfold extractStridedSlice
  refine pad_apply_of_inside _ _ _ x v _ hu _ n (fun a => ?_)
  fin_cases a
  simp

theorem untile_padF (x : FVec F S1000000 .f32) : untile (tile (padF x)) = x := by
  rw [untile_tile]; exact slice_pad x _ _
theorem untile_padI (x : IVec S1000000 32) : untile (tile (padI x)) = x := by
  rw [untile_tile]; exact slice_pad x _ _

/-- The launch's result, read back: the update of the four per-neuron arrays. -/
theorem untile_G (c : Dev nD) :
    untile (G m c) = Cert.Act.update (prev (m ((c : Thread nD τ).loc main_arg0)))
      (seg (m ((c : Thread nD τ).loc main_arg0)) (m ((c : Thread nD τ).loc main_arg1))
        (m ((c : Thread nD τ).loc main_arg3)) (m ((c : Thread nD τ).loc main_arg4)) (m ((c : Thread nD τ).loc main_arg5))
        (m ((c : Thread nD τ).loc main_arg6)) (m ((c : Thread nD τ).loc main_arg7)))
      (m ((c : Thread nD τ).loc main_arg2)) (m ((c : Thread nD τ).loc main_arg8)) := by
  show untile (Cert.Act.update (V m c main_v10) (V m c main_v12) (V m c main_v14) (V m c main_v16)) = _
  rw [V10_eq, V12_eq, V14_eq, V16_eq, untile_update, untile_padF, untile_padF, untile_padF, untile_padI]

set_option maxHeartbeats 2000000 in
/-- What the host operations after the launch leave in the result buffer. -/
theorem tail_eq (c : Dev nD) :
    (Pipeline.afterTail₀ cfgs (dats m) 0 (V0 m) [hostOps1] c main_v26 : Vec F S8192 .f32)
      = Host.gather gather_S1000000_S8192x1_S8192_n_0_n_n_0_1_1 (untile (G m c))
          (outIdx (m ((c : Thread nD τ).loc main_arg9))) := by
  unfold Pipeline.afterTail₀
  show StableHlo.after hostOps1 _ (Proc.devRef .tc main_v26) = _
  after_results_simp
  have h17 : Pipeline.withArrays (cfgs 0).spec c (V0 m c) (fun w => (dats m 0 c).arrAt w (cfgs 0).N) (Proc.devRef .tc main_v17)
      = G m c := (Pipeline.withArrays_arr spec0 launch0.win.arr_inj c _ _ 4).trans (final m c)
  have h9 : Pipeline.withArrays (cfgs 0).spec c (V0 m c) (fun w => (dats m 0 c).arrAt w (cfgs 0).N) (Proc.devRef .tc main_arg9)
      = m ((c : Thread nD τ).loc main_arg9) :=
    (Pipeline.withArrays_of_ne _ c (V0 m c) _ main_arg9 (by exact (by decide : ∀ w, Pipeline.arrRef spec0 w ≠ main_arg9))).trans
      (V_main_arg9 m c)
  rw [h17, h9]
  rfl

/-- The run, read: the result buffer at the requested entries of the updated state, the arguments unchanged. -/
theorem run : θ_run defs (onTc (τ := τ) (main (F := F))) ⟨m, fun _ => 0, ρ⟩ fun r => ∀ c : Dev nD,
      r.2.mem ((c.tc : Thread nD τ).loc main_v26)
        = Host.gather gather_S1000000_S8192x1_S8192_n_0_n_n_0_1_1
            (Cert.Act.update (prev (m ((c : Thread nD τ).loc main_arg0)))
              (seg (m ((c : Thread nD τ).loc main_arg0)) (m ((c : Thread nD τ).loc main_arg1))
                (m ((c : Thread nD τ).loc main_arg3)) (m ((c : Thread nD τ).loc main_arg4)) (m ((c : Thread nD τ).loc main_arg5))
                (m ((c : Thread nD τ).loc main_arg6)) (m ((c : Thread nD τ).loc main_arg7)))
              (m ((c : Thread nD τ).loc main_arg2)) (m ((c : Thread nD τ).loc main_arg8)))
            (outIdx (m ((c : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(((h c).2 main_v26 (Pipeline.mem_restRefs_of main_v26 (by decide) (by decide))).trans (tail_eq m c)).trans
        (by rw [untile_G]),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Hand

end
-- ==== Proof.RefRun.lean ====
/-
  The reference program's @main as one straight line of host operations, and its run.

  @main is stated in two consecutive windows, and five of its statements are calls of module-local
  functions (a select, a rectifier, a leaky rectifier which itself calls a select, a clip, a softplus).
  A call executes the callee's body on the caller's operands, each value of the body in a buffer of its own,
  so the whole program is a list of 108 operations: the callee's operations stand at the call site, over the
  call's buffer record. The list below is that line, in program order; `main_eq` says that @main is the
  sequence of these operations, and `run_main` that every weakly fair execution from zero counters ends
  with each buffer at the fold of the operations over the launch contents.
-/
import proofs.«413046_j43705587204567_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 108 operations in program order, the calls unfolded at their sites: the first window's 86
    (the scaled state, the two index normalisations and gathers, the masked select, the scatter-add, the two
    sums giving the pre-activation, then the eight activation rows, each broadcast to one row, and their
    concatenation, the iota and the first steps of the row index) and the second window's 22 (the row and
    column indices paired, the two-axis gather, the final index normalisation and gather). -/
abbrev ops : List (HloOp τ sig (Elt F)) :=
  [ StableHlo.nullary main_cst (constant S_ .f32 0x3EA8F5C3#32),
    StableHlo.unary main_cst main_v0 (broadcastInDim S1000000 ![] bcast_S_S1000000 : (⟨S_, .f32⟩ : BufTy).Contents (Elt F) → (⟨S1000000, .f32⟩ : BufTy).Contents (Elt F)),
    StableHlo.binary main_v0 main_arg0 main_v1 (mulf : (⟨S1000000, .f32⟩ : BufTy).Contents (Elt F) → (⟨S1000000, .f32⟩ : BufTy).Contents (Elt F) → (⟨S1000000, .f32⟩ : BufTy).Contents (Elt F)),
    StableHlo.nullary main_c (constantI S_ 32 0#32),
    StableHlo.unary main_c main_v2 (broadcastInDim S16000000 ![] bcast_S_S16000000 : (⟨S_, .i32⟩ : BufTy).Contents (Elt F) → (⟨S16000000, .i32⟩ : BufTy).Contents (Elt F)),
    StableHlo.binary main_arg4 main_v2 main_v3 (cmpi .slt : (⟨S16000000, .i32⟩ : BufTy).Contents (Elt F) → (⟨S16000000, .i32⟩ : BufTy).Contents (Elt F) → (⟨S16000000, .i1⟩ : BufTy).Contents (Elt F)),
    StableHlo.nullary main_c_0 (constantI S_ 32 1000000#32),
    StableHlo.unary main_c_0 main_v4 (broadcastInDim S16000000 ![] bcast_S_S16000000 : (⟨S_, .i32⟩ : BufTy).Contents (Elt F) → (⟨S16000000, .i32⟩ : BufTy).Contents (Elt F)),
    StableHlo.binary main_arg4 main_v4 main_v5 (addi : (⟨S16000000, .i32⟩ : BufTy).Contents (Elt F) → (⟨S16000000, .i32⟩ : BufTy).Contents (Elt F) → (⟨S16000000, .i32⟩ : BufTy).Contents (Elt F)),
    StableHlo.ternary main_v3 main_v5 main_arg4 main_v6 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    StableHlo.unary main_v6 main_v7 (broadcastInDim S16000000x1 ![0] bcast_S16000000_S16000000x1_0 : (⟨S16000000, .i32⟩ : BufTy).Contents (Elt F) → (⟨S16000000x1, .i32⟩ : BufTy).Contents (Elt F)),
    StableHlo.binary main_v1 main_v7 main_v8 ((fun x i => Host.gather gather_S1000000_S16000000x1_S16000000_n_0_n_n_0_1_1 x i) : (⟨S1000000, .f32⟩ : BufTy).Contents (Elt F) → (⟨S16000000x1, .i32⟩ : BufTy).Contents (Elt F) → (⟨S16000000, .f32⟩ : BufTy).Contents (Elt F)),
    StableHlo.nullary main_c_1 (constantI S_ 32 0#32),
    StableHlo.unary main_c_1 main_v9 (broadcastInDim S16000000 ![] bcast_S_S16000000 : (⟨S_, .i32⟩ : BufTy).Contents (Elt F) → (⟨S16000000, .i32⟩ : BufTy).Contents (Elt F)),
    StableHlo.binary main_arg7 main_v9 main_v10 (cmpi .slt : (⟨S16000000, .i32⟩ : BufTy).Contents (Elt F) → (⟨S16000000, .i32⟩ : BufTy).Contents (Elt F) → (⟨S16000000, .i1⟩ : BufTy).Contents (Elt F)),
    StableHlo.nullary main_c_2 (constantI S_ 32 1024#32),
    StableHlo.unary main_c_2 main_v11 (broadcastInDim S16000000 ![] bcast_S_S16000000 : (⟨S_, .i32⟩ : BufTy).Contents (Elt F) → (⟨S16000000, .i32⟩ : BufTy).Contents (Elt F)),
    StableHlo.binary main_arg7 main_v11 main_v12 (addi : (⟨S16000000, .i32⟩ : BufTy).Contents (Elt F) → (⟨S16000000, .i32⟩ : BufTy).Contents (Elt F) → (⟨S16000000, .i32⟩ : BufTy).Contents (Elt F)),
    StableHlo.ternary main_v10 main_v12 main_arg7 main_v13 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    StableHlo.unary main_v13 main_v14 (broadcastInDim S16000000x1 ![0] bcast_S16000000_S16000000x1_0 : (⟨S16000000, .i32⟩ : BufTy).Contents (Elt F) → (⟨S16000000x1, .i32⟩ : BufTy).Contents (Elt F)),
    StableHlo.binary main_arg3 main_v14 main_v15 ((fun x i => Host.gather gather_S1024_S16000000x1_S16000000_n_0_n_n_0_1_1 x i) : (⟨S1024, .f32⟩ : BufTy).Contents (Elt F) → (⟨S16000000x1, .i32⟩ : BufTy).Contents (Elt F) → (⟨S16000000, .f32⟩ : BufTy).Contents (Elt F)),
    StableHlo.TRef.ternary (.of main_arg6) (.of main_v8) (.of main_v15) main_call0.v0 select,
    StableHlo.binary main_arg1 main_v16 main_v17 (mulf : (⟨S16000000, .f32⟩ : BufTy).Contents (Elt F) → (⟨S16000000, .f32⟩ : BufTy).Contents (Elt F) → (⟨S16000000, .f32⟩ : BufTy).Contents (Elt F)),
    StableHlo.nullary main_cst_3 (constant S_ .f32 0x00000000#32),
    StableHlo.unary main_cst_3 main_v18 (broadcastInDim S1000000 ![] bcast_S_S1000000 : (⟨S_, .f32⟩ : BufTy).Contents (Elt F) → (⟨S1000000, .f32⟩ : BufTy).Contents (Elt F)),
    StableHlo.unary main_arg5 main_v19 (broadcastInDim S16000000x1 ![0] bcast_S16000000_S16000000x1_0 : (⟨S16000000, .i32⟩ : BufTy).Contents (Elt F) → (⟨S16000000x1, .i32⟩ : BufTy).Contents (Elt F)),
    StableHlo.ternary main_v18 main_v19 main_v17 main_v20 ((fun x i u => Host.scatterAdd scatter_S1000000_S16000000x1_S16000000_n_0_0_1 x i u) : (⟨S1000000, .f32⟩ : BufTy).Contents (Elt F) → (⟨S16000000x1, .i32⟩ : BufTy).Contents (Elt F) → (⟨S16000000, .f32⟩ : BufTy).Contents (Elt F) → (⟨S1000000, .f32⟩ : BufTy).Contents (Elt F)),
    StableHlo.binary main_v1 main_v20 main_v21 (addf : (⟨S1000000, .f32⟩ : BufTy).Contents (Elt F) → (⟨S1000000, .f32⟩ : BufTy).Contents (Elt F) → (⟨S1000000, .f32⟩ : BufTy).Contents (Elt F)),
    StableHlo.binary main_v21 main_arg2 main_v22 (addf : (⟨S1000000, .f32⟩ : BufTy).Contents (Elt F) → (⟨S1000000, .f32⟩ : BufTy).Contents (Elt F) → (⟨S1000000, .f32⟩ : BufTy).Contents (Elt F)),
    StableHlo.TRef.nullary main_call1.cst (constant S_ .f32 0x00000000#32),
    StableHlo.TRef.unary main_call1.cst main_call1.v0 (broadcastInDim S1000000 ![] bcast_S_S1000000),
    StableHlo.TRef.binary (.of main_v22) main_call1.v0 main_call1.v1 maximumf,
    StableHlo.TRef.nullary main_call2.cst (constant S_ .f32 0x00000000#32),
    StableHlo.TRef.unary main_call2.cst main_call2.v0 (broadcastInDim S1000000 ![] bcast_S_S1000000),
    StableHlo.TRef.binary (.of main_v22) main_call2.v0 main_call2.v1 (cmpf .oge),
    StableHlo.TRef.nullary main_call2.cst_0 (constant S_ .f32 0x3C23D70A#32),
    StableHlo.TRef.unary main_call2.cst_0 main_call2.v2 (broadcastInDim S1000000 ![] bcast_S_S1000000),
    StableHlo.TRef.binary main_call2.v2 (.of main_v22) main_call2.v3 mulf,
    StableHlo.TRef.ternary main_call2.v1 (.of main_v22) main_call2.v3 main_call2.call0.v0 select,
    StableHlo.nullary main_cst_4 (constant S_ .f32 0x00000000#32),
    StableHlo.nullary main_cst_5 (constant S_ .f32 0x3F800000#32),
    StableHlo.TRef.unary (.of main_cst_4) main_call3.v0 id,
    StableHlo.TRef.unary main_call3.v0 main_call3.v1 (broadcastInDim S1000000 ![] bcast_S_S1000000),
    StableHlo.TRef.binary main_call3.v1 (.of main_v22) main_call3.v2 maximumf,
    StableHlo.TRef.unary (.of main_cst_5) main_call3.v3 id,
    StableHlo.TRef.unary main_call3.v3 main_call3.v4 (broadcastInDim S1000000 ![] bcast_S_S1000000),
    StableHlo.TRef.binary main_call3.v4 main_call3.v2 main_call3.v5 minimumf,
    StableHlo.unary main_v22 main_v26 (Host.tanh : (⟨S1000000, .f32⟩ : BufTy).Contents (Elt F) → (⟨S1000000, .f32⟩ : BufTy).Contents (Elt F)),
    StableHlo.unary main_v22 main_v27 (Host.negf : (⟨S1000000, .f32⟩ : BufTy).Contents (Elt F) → (⟨S1000000, .f32⟩ : BufTy).Contents (Elt F)),
    StableHlo.unary main_v27 main_v28 (Host.exp : (⟨S1000000, .f32⟩ : BufTy).Contents (Elt F) → (⟨S1000000, .f32⟩ : BufTy).Contents (Elt F)),
    StableHlo.nullary main_cst_6 (constant S_ .f32 0x3F800000#32),
    StableHlo.unary main_cst_6 main_v29 (broadcastInDim S1000000 ![] bcast_S_S1000000 : (⟨S_, .f32⟩ : BufTy).Contents (Elt F) → (⟨S1000000, .f32⟩ : BufTy).Contents (Elt F)),
    StableHlo.binary main_v29 main_v28 main_v30 (addf : (⟨S1000000, .f32⟩ : BufTy).Contents (Elt F) → (⟨S1000000, .f32⟩ : BufTy).Contents (Elt F) → (⟨S1000000, .f32⟩ : BufTy).Contents (Elt F)),
    StableHlo.nullary main_cst_7 (constant S_ .f32 0x3F800000#32),
    StableHlo.unary main_cst_7 main_v31 (broadcastInDim S1000000 ![] bcast_S_S1000000 : (⟨S_, .f32⟩ : BufTy).Contents (Elt F) → (⟨S1000000, .f32⟩ : BufTy).Contents (Elt F)),
    StableHlo.binary main_v31 main_v30 main_v32 (Host.divf : (⟨S1000000, .f32⟩ : BufTy).Contents (Elt F) → (⟨S1000000, .f32⟩ : BufTy).Contents (Elt F) → (⟨S1000000, .f32⟩ : BufTy).Contents (Elt F)),
    StableHlo.TRef.nullary main_call4.cst (constant S_ .f32 0x00000000#32),
    StableHlo.TRef.unary main_call4.cst main_call4.v0 (broadcastInDim S1000000 ![] bcast_S_S1000000),
    StableHlo.TRef.binary (.of main_v22) main_call4.v0 main_call4.v1 maximumf,
    StableHlo.TRef.unary main_call4.cst main_call4.v2 (broadcastInDim S1000000 ![] bcast_S_S1000000),
    StableHlo.TRef.binary (.of main_v22) main_call4.v2 main_call4.v3 subf,
    StableHlo.TRef.binary main_call4.v3 main_call4.v3 main_call4.v4 (cmpf .une),
    StableHlo.TRef.unary main_call4.cst main_call4.v5 (broadcastInDim S1000000 ![] bcast_S_S1000000),
    StableHlo.TRef.binary (.of main_v22) main_call4.v5 main_call4.v6 addf,
    StableHlo.TRef.unary main_call4.v3 main_call4.v7 Host.absf,
    StableHlo.TRef.unary main_call4.v7 main_call4.v8 Host.negf,
    StableHlo.TRef.unary main_call4.v8 main_call4.v9 Host.exp,
    StableHlo.TRef.unary main_call4.v9 main_call4.v10 Host.log1p,
    StableHlo.TRef.binary main_call4.v1 main_call4.v10 main_call4.v11 addf,
    StableHlo.TRef.ternary main_call4.v4 main_call4.v6 main_call4.v11 main_call4.v12 select,
    StableHlo.unary main_v22 main_v34 (Host.absf : (⟨S1000000, .f32⟩ : BufTy).Contents (Elt F) → (⟨S1000000, .f32⟩ : BufTy).Contents (Elt F)),
    StableHlo.unary main_v22 main_v35 (broadcastInDim S1x1000000 ![1] bcast_S1000000_S1x1000000_1 : (⟨S1000000, .f32⟩ : BufTy).Contents (Elt F) → (⟨S1x1000000, .f32⟩ : BufTy).Contents (Elt F)),
    StableHlo.unary main_v23 main_v36 (broadcastInDim S1x1000000 ![1] bcast_S1000000_S1x1000000_1 : (⟨S1000000, .f32⟩ : BufTy).Contents (Elt F) → (⟨S1x1000000, .f32⟩ : BufTy).Contents (Elt F)),
    StableHlo.unary main_v24 main_v37 (broadcastInDim S1x1000000 ![1] bcast_S1000000_S1x1000000_1 : (⟨S1000000, .f32⟩ : BufTy).Contents (Elt F) → (⟨S1x1000000, .f32⟩ : BufTy).Contents (Elt F)),
    StableHlo.unary main_v25 main_v38 (broadcastInDim S1x1000000 ![1] bcast_S1000000_S1x1000000_1 : (⟨S1000000, .f32⟩ : BufTy).Contents (Elt F) → (⟨S1x1000000, .f32⟩ : BufTy).Contents (Elt F)),
    StableHlo.unary main_v26 main_v39 (broadcastInDim S1x1000000 ![1] bcast_S1000000_S1x1000000_1 : (⟨S1000000, .f32⟩ : BufTy).Contents (Elt F) → (⟨S1x1000000, .f32⟩ : BufTy).Contents (Elt F)),
    StableHlo.unary main_v32 main_v40 (broadcastInDim S1x1000000 ![1] bcast_S1000000_S1x1000000_1 : (⟨S1000000, .f32⟩ : BufTy).Contents (Elt F) → (⟨S1x1000000, .f32⟩ : BufTy).Contents (Elt F)),
    StableHlo.unary main_v33 main_v41 (broadcastInDim S1x1000000 ![1] bcast_S1000000_S1x1000000_1 : (⟨S1000000, .f32⟩ : BufTy).Contents (Elt F) → (⟨S1x1000000, .f32⟩ : BufTy).Contents (Elt F)),
    StableHlo.unary main_v34 main_v42 (broadcastInDim S1x1000000 ![1] bcast_S1000000_S1x1000000_1 : (⟨S1000000, .f32⟩ : BufTy).Contents (Elt F) → (⟨S1x1000000, .f32⟩ : BufTy).Contents (Elt F)),
    StableHlo.nary ![main_v35, main_v36, main_v37, main_v38, main_v39, main_v40, main_v41, main_v42] main_v43 (fun u => concatenate S8x1000000 0 [⟨S1x1000000, u 0⟩, ⟨S1x1000000, u 1⟩, ⟨S1x1000000, u 2⟩, ⟨S1x1000000, u 3⟩, ⟨S1x1000000, u 4⟩, ⟨S1x1000000, u 5⟩, ⟨S1x1000000, u 6⟩, ⟨S1x1000000, u 7⟩] concatenates_S1x1000000_S1x1000000_S1x1000000_S1x1000000_S1x1000000_S1x1000000_S1x1000000_S1x1000000_S8x1000000_d0),
    StableHlo.nullary main_v44 (iotaInDim S1000000 32 0),
    StableHlo.nullary main_c_8 (constantI S_ 32 0#32),
    StableHlo.unary main_c_8 main_v45 (broadcastInDim S1000000 ![] bcast_S_S1000000 : (⟨S_, .i32⟩ : BufTy).Contents (Elt F) → (⟨S1000000, .i32⟩ : BufTy).Contents (Elt F)),
    StableHlo.binary main_arg8 main_v45 main_v46 (cmpi .slt : (⟨S1000000, .i32⟩ : BufTy).Contents (Elt F) → (⟨S1000000, .i32⟩ : BufTy).Contents (Elt F) → (⟨S1000000, .i1⟩ : BufTy).Contents (Elt F)),
    StableHlo.nullary main_c_9 (constantI S_ 32 8#32),
    StableHlo.unary main_c_9 main_v47 (broadcastInDim S1000000 ![] bcast_S_S1000000 : (⟨S_, .i32⟩ : BufTy).Contents (Elt F) → (⟨S1000000, .i32⟩ : BufTy).Contents (Elt F)),
    StableHlo.binary main_arg8 main_v47 main_v48 (addi : (⟨S1000000, .i32⟩ : BufTy).Contents (Elt F) → (⟨S1000000, .i32⟩ : BufTy).Contents (Elt F) → (⟨S1000000, .i32⟩ : BufTy).Contents (Elt F)),
    StableHlo.ternary main_v46 main_v48 main_arg8 main_v49 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.nullary main_c_10 (constantI S_ 32 0#32),
    StableHlo.unary main_c_10 main_v50 (broadcastInDim S1000000 ![] bcast_S_S1000000 : (⟨S_, .i32⟩ : BufTy).Contents (Elt F) → (⟨S1000000, .i32⟩ : BufTy).Contents (Elt F)),
    StableHlo.binary main_v44 main_v50 main_v51 (cmpi .slt : (⟨S1000000, .i32⟩ : BufTy).Contents (Elt F) → (⟨S1000000, .i32⟩ : BufTy).Contents (Elt F) → (⟨S1000000, .i1⟩ : BufTy).Contents (Elt F)),
    StableHlo.nullary main_c_11 (constantI S_ 32 1000000#32),
    StableHlo.unary main_c_11 main_v52 (broadcastInDim S1000000 ![] bcast_S_S1000000 : (⟨S_, .i32⟩ : BufTy).Contents (Elt F) → (⟨S1000000, .i32⟩ : BufTy).Contents (Elt F)),
    StableHlo.binary main_v44 main_v52 main_v53 (addi : (⟨S1000000, .i32⟩ : BufTy).Contents (Elt F) → (⟨S1000000, .i32⟩ : BufTy).Contents (Elt F) → (⟨S1000000, .i32⟩ : BufTy).Contents (Elt F)),
    StableHlo.ternary main_v51 main_v53 main_v44 main_v54 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v49 main_v55 (broadcastInDim S1000000x1 ![0] bcast_S1000000_S1000000x1_0 : (⟨S1000000, .i32⟩ : BufTy).Contents (Elt F) → (⟨S1000000x1, .i32⟩ : BufTy).Contents (Elt F)),
    StableHlo.unary main_v54 main_v56 (broadcastInDim S1000000x1 ![0] bcast_S1000000_S1000000x1_0 : (⟨S1000000, .i32⟩ : BufTy).Contents (Elt F) → (⟨S1000000x1, .i32⟩ : BufTy).Contents (Elt F)),
    StableHlo.binary main_v55 main_v56 main_v57 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    StableHlo.binary main_v43 main_v57 main_v58 ((fun x i => Host.gather gather_S8x1000000_S1000000x2_S1000000_n_01_n_n_01_1_11 x i) : (⟨S8x1000000, .f32⟩ : BufTy).Contents (Elt F) → (⟨S1000000x2, .i32⟩ : BufTy).Contents (Elt F) → (⟨S1000000, .f32⟩ : BufTy).Contents (Elt F)),
    StableHlo.nullary main_c_12 (constantI S_ 32 0#32),
    StableHlo.unary main_c_12 main_v59 (broadcastInDim S8192 ![] bcast_S_S8192 : (⟨S_, .i32⟩ : BufTy).Contents (Elt F) → (⟨S8192, .i32⟩ : BufTy).Contents (Elt F)),
    StableHlo.binary main_arg9 main_v59 main_v60 (cmpi .slt : (⟨S8192, .i32⟩ : BufTy).Contents (Elt F) → (⟨S8192, .i32⟩ : BufTy).Contents (Elt F) → (⟨S8192, .i1⟩ : BufTy).Contents (Elt F)),
    StableHlo.nullary main_c_13 (constantI S_ 32 1000000#32),
    StableHlo.unary main_c_13 main_v61 (broadcastInDim S8192 ![] bcast_S_S8192 : (⟨S_, .i32⟩ : BufTy).Contents (Elt F) → (⟨S8192, .i32⟩ : BufTy).Contents (Elt F)),
    StableHlo.binary main_arg9 main_v61 main_v62 (addi : (⟨S8192, .i32⟩ : BufTy).Contents (Elt F) → (⟨S8192, .i32⟩ : BufTy).Contents (Elt F) → (⟨S8192, .i32⟩ : BufTy).Contents (Elt F)),
    StableHlo.ternary main_v60 main_v62 main_arg9 main_v63 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v63 main_v64 (broadcastInDim S8192x1 ![0] bcast_S8192_S8192x1_0 : (⟨S8192, .i32⟩ : BufTy).Contents (Elt F) → (⟨S8192x1, .i32⟩ : BufTy).Contents (Elt F)),
    StableHlo.binary main_v58 main_v64 main_v65 ((fun x i => Host.gather gather_S1000000_S8192x1_S8192_n_0_n_n_0_1_1 x i) : (⟨S1000000, .f32⟩ : BufTy).Contents (Elt F) → (⟨S8192x1, .i32⟩ : BufTy).Contents (Elt F) → (⟨S8192, .f32⟩ : BufTy).Contents (Elt F)) ]

-- 108 binds re-associated: the rewrite under the chain recurses once per statement
set_option maxRecDepth 8192 in
set_option maxHeartbeats 4000000 in
/-- @main is that straight line: the two windows and the functions' definitions unfolded at their calls,
    both sides are one chain of steps once sequencing is re-associated. -/
theorem main_eq (c : Dev nD) : main (F := F) c = seq ops := by
  simp only [main, main_part0, main_part1, fn_where.body, fn_relu.body, fn_where_0.body, fn_leaky_relu.body,
    fn_clip.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., ternary_bufs_sub .., binary_bufs_sub .., nullary_bufs_sub ..,
    unary_bufs_sub .., unary_bufs_sub .., ternary_bufs_sub .., binary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., unary_bufs_sub .., nullary_bufs_sub .., unary_bufs_sub .., binary_bufs_sub .., nullary_bufs_sub ..,
    unary_bufs_sub .., binary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., unary_bufs_sub .., unary_bufs_sub ..,
    unary_bufs_sub .., unary_bufs_sub .., unary_bufs_sub .., unary_bufs_sub .., unary_bufs_sub .., unary_bufs_sub ..,
    unary_bufs_sub .., nary_bufs_sub .., nullary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩

/-- At the compiled mesh, for any float values, from any memory with zero counters: every weakly fair
    execution of @main terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefTerm.lean ====
/-
  The reference's result as one pure term of its ten argument arrays, stage by stage.
  A network of N = 1,000,000 neurons and E = 16,000,000 edges takes one step: the previous state is scaled by
  0.33; edge e carries weights[e] times either the scaled state of its source neuron or an entry of the input
  vector, as its mask bit says; the messages are summed at their destination neurons; each neuron adds the
  scaled state, the summed messages and its bias, and applies the one of eight activations its id names
  (identity, relu, leaky relu, relu clipped at 1, tanh, sigmoid, softplus, absolute value): the reference stacks the
  eight activated arrays as the rows of an [8, N] array and takes entry (id[n], n) for neuron n. The result is
  the new state at the 8192 requested neurons. An index below zero counts from the array's end.
-/
import proofs.«413046_j43705587204567_2_alg».proof.Proof.Gen.ReferenceIdeal

noncomputable section

namespace Cert.ReferenceIdeal.Hand

open Cert.ReferenceIdeal Cert.ReferenceIdeal.Gen Idealize.ShloMosaic

variable {F : FTy → Type} [FloatOps F]

/-- The previous state scaled by the refractory factor. -/
def prev (state : FVec F S1000000 .f32) : FVec F S1000000 .f32 :=
  mulf (broadcastInDim S1000000 ![] bcast_S_S1000000 (constant S_ .f32 0x3EA8F5C3#32)) state

/-- An edge index array with "i < 0 means i + n". -/
def wrapE (n : BitVec 32) (i : IVec S16000000 32) : IVec S16000000 32 :=
  select (cmpi .slt i (broadcastInDim S16000000 ![] bcast_S_S16000000 (constantI S_ 32 0#32)))
    (addi i (broadcastInDim S16000000 ![] bcast_S_S16000000 (constantI S_ 32 n))) i

/-- An edge array as a one-column table of start indices. -/
def colE (i : IVec S16000000 32) : IVec S16000000x1 32 :=
  broadcastInDim S16000000x1 ![0] bcast_S16000000_S16000000x1_0 i

/-- What each edge reads: its source's scaled state where the mask bit is set, else its entry of the input. -/
def fromState (state : FVec F S1000000 .f32) (inp : FVec F S1024 .f32) (src : IVec S16000000 32)
    (rec_mask : IVec S16000000 1) (input_idx : IVec S16000000 32) : FVec F S16000000 .f32 :=
  select rec_mask
    (Host.gather gather_S1000000_S16000000x1_S16000000_n_0_n_n_0_1_1 (prev state) (colE (wrapE 1000000#32 src)))
    (Host.gather gather_S1024_S16000000x1_S16000000_n_0_n_n_0_1_1 inp (colE (wrapE 1024#32 input_idx)))

/-- The zero array over the neurons. -/
def zeros : FVec F S1000000 .f32 := broadcastInDim S1000000 ![] bcast_S_S1000000 (constant S_ .f32 0x00000000#32)

/-- The array of ones over the neurons. -/
def ones : FVec F S1000000 .f32 := broadcastInDim S1000000 ![] bcast_S_S1000000 (constant S_ .f32 0x3F800000#32)

/-- The messages summed at their destinations. -/
def seg (state : FVec F S1000000 .f32) (weights : FVec F S16000000 .f32) (inp : FVec F S1024 .f32)
    (src dst : IVec S16000000 32) (rec_mask : IVec S16000000 1) (input_idx : IVec S16000000 32) : FVec F S1000000 .f32 :=
  Host.scatterAdd scatter_S1000000_S16000000x1_S16000000_n_0_0_1 zeros (colE dst)
    (mulf weights (fromState state inp src rec_mask input_idx))

/-- Each neuron's sum: scaled state, summed messages, bias. -/
def acc (state : FVec F S1000000 .f32) (weights : FVec F S16000000 .f32) (biases : FVec F S1000000 .f32)
    (inp : FVec F S1024 .f32) (src dst : IVec S16000000 32) (rec_mask : IVec S16000000 1)
    (input_idx : IVec S16000000 32) : FVec F S1000000 .f32 :=
  addf (addf (prev state) (seg state weights inp src dst rec_mask input_idx)) biases

/-- max(x, 0). -/
def relu (x : FVec F S1000000 .f32) : FVec F S1000000 .f32 := maximumf x zeros

/-- x where x ≥ 0, else 0.01·x. -/
def leaky (x : FVec F S1000000 .f32) : FVec F S1000000 .f32 :=
  select (cmpf .oge x zeros) x
    (mulf (broadcastInDim S1000000 ![] bcast_S_S1000000 (constant S_ .f32 0x3C23D70A#32)) x)

/-- min(1, max(0, x)). -/
def clip (x : FVec F S1000000 .f32) : FVec F S1000000 .f32 :=
  minimumf (broadcastInDim S1000000 ![] bcast_S_S1000000 (id (constant S_ .f32 0x3F800000#32)))
    (maximumf (broadcastInDim S1000000 ![] bcast_S_S1000000 (id (constant S_ .f32 0x00000000#32))) x)

/-- 1 / (1 + exp(-x)). -/
def sigm (x : FVec F S1000000 .f32) : FVec F S1000000 .f32 :=
  Host.divf ones (addf ones (Host.exp (Host.negf x)))

/-- max(x, 0) + log(1 + exp(-|x - 0|)), behind a test "x - 0 differs from itself" that chooses x + 0. -/
def softplus (x : FVec F S1000000 .f32) : FVec F S1000000 .f32 :=
  select (cmpf .une (subf x zeros) (subf x zeros)) (addf x zeros)
    (addf (maximumf x zeros) (Host.log1p (Host.exp (Host.negf (Host.absf (subf x zeros))))))

/-- A neuron array as one row. -/
def row (x : FVec F S1000000 .f32) : FVec F S1x1000000 .f32 :=
  broadcastInDim S1x1000000 ![1] bcast_S1000000_S1x1000000_1 x

/-- The eight activated arrays as the rows of an [8, N] array. -/
def stack (x : FVec F S1000000 .f32) : FVec F S8x1000000 .f32 :=
  concatenate S8x1000000 0 [⟨S1x1000000, row x⟩, ⟨S1x1000000, row (relu x)⟩, ⟨S1x1000000, row (leaky x)⟩,
    ⟨S1x1000000, row (clip x)⟩, ⟨S1x1000000, row (Host.tanh x)⟩, ⟨S1x1000000, row (sigm x)⟩,
    ⟨S1x1000000, row (softplus x)⟩, ⟨S1x1000000, row (Host.absf x)⟩]
    concatenates_S1x1000000_S1x1000000_S1x1000000_S1x1000000_S1x1000000_S1x1000000_S1x1000000_S1x1000000_S8x1000000_d0

/-- A neuron index array with "i < 0 means i + n". -/
def wrapN (n : BitVec 32) (i : IVec S1000000 32) : IVec S1000000 32 :=
  select (cmpi .slt i (broadcastInDim S1000000 ![] bcast_S_S1000000 (constantI S_ 32 0#32)))
    (addi i (broadcastInDim S1000000 ![] bcast_S_S1000000 (constantI S_ 32 n))) i

/-- A neuron array as one column. -/
def colN (i : IVec S1000000 32) : IVec S1000000x1 32 :=
  broadcastInDim S1000000x1 ![0] bcast_S1000000_S1000000x1_0 i

/-- The index pairs (id[n], n). -/
def pairs (act_id : IVec S1000000 32) : IVec S1000000x2 32 :=
  concatenate S1000000x2 1 [⟨S1000000x1, colN (wrapN 8#32 act_id)⟩,
    ⟨S1000000x1, colN (wrapN 1000000#32 (iotaInDim S1000000 32 0))⟩]
    concatenates_S1000000x1_S1000000x1_S1000000x2_d1

/-- The new state: entry (id[n], n) of the stacked activations of the sums. -/
def newState (state : FVec F S1000000 .f32) (weights : FVec F S16000000 .f32) (biases : FVec F S1000000 .f32)
    (inp : FVec F S1024 .f32) (src dst : IVec S16000000 32) (rec_mask : IVec S16000000 1)
    (input_idx : IVec S16000000 32) (act_id : IVec S1000000 32) : FVec F S1000000 .f32 :=
  Host.gather gather_S8x1000000_S1000000x2_S1000000_n_01_n_n_01_1_11
    (stack (acc state weights biases inp src dst rec_mask input_idx)) (pairs act_id)

/-- The requested neurons as a one-column table of start indices, "i < 0 means i + N". -/
def outIdx (out_ids : IVec S8192 32) : IVec S8192x1 32 :=
  broadcastInDim S8192x1 ![0] bcast_S8192_S8192x1_0
    (select (cmpi .slt out_ids (broadcastInDim S8192 ![] bcast_S_S8192 (constantI S_ 32 0#32)))
      (addi out_ids (broadcastInDim S8192 ![] bcast_S_S8192 (constantI S_ 32 1000000#32))) out_ids)

/-- The reference's result. -/
def out (state : FVec F S1000000 .f32) (weights : FVec F S16000000 .f32) (biases : FVec F S1000000 .f32)
    (inp : FVec F S1024 .f32) (src dst : IVec S16000000 32) (rec_mask : IVec S16000000 1)
    (input_idx : IVec S16000000 32) (act_id : IVec S1000000 32) (out_ids : IVec S8192 32) : FVec F S8192 .f32 :=
  Host.gather gather_S1000000_S8192x1_S8192_n_0_n_n_0_1_1
    (newState state weights biases inp src dst rec_mask input_idx act_id) (outIdx out_ids)

end Cert.ReferenceIdeal.Hand

end
-- ==== Proof.RefRead.lean ====
/-
  What the reference's line of operations leaves in its buffers: the result buffer holds the pure term
  `out` of the ten argument arrays, and no argument buffer is written.

  The fold of the 108 operations at a buffer is a computation: unrolled, each operation's result decides
  whether the buffer read is the one it writes (then it is the operation's function of its operands'
  contents, read the same way one step earlier) or another (then it is what was there). At the result buffer
  the functions so composed are the stages of `out`, one for one: the scaled state, the two index
  normalisations and gathers under the mask, the weighted messages summed at their destinations, the sum with
  the bias, the eight activations stacked as rows, the entry (id[n], n) of the stack, and the final gather at
  the requested neurons. At an argument buffer every operation writes another buffer.
-/
import proofs.«413046_j43705587204567_2_alg».proof.Proof.RefRun
import proofs.«413046_j43705587204567_2_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the gathers, the scatter-add and the concatenations are folds and searches over their operands' elements:
-- kept folded, so that the two sides are compared through the chain of results and never inside them
attribute [local irreducible] Host.gather Host.scatterAdd concatenate in
set_option maxRecDepth 16384 in
set_option maxHeartbeats 4000000 in
/-- The result buffer after the line holds `out` of the arguments' contents. -/
theorem out_eq (V : Valuation τ sig (Elt F)) :
    after ops V (main_v65 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem arg8_eq (V : Valuation τ sig (Elt F)) :
    after ops V (main_arg8 : DevRef τ sig) = V (main_arg8 : DevRef τ sig) := by
  simp only [after_cons, after_nil]
  rfl

theorem arg9_eq (V : Valuation τ sig (Elt F)) :
    after ops V (main_arg9 : DevRef τ sig) = V (main_arg9 : DevRef τ sig) := by
  simp only [after_cons, after_nil]
  rfl

end Cert.ReferenceIdeal.Hand

end
-- ==== Proof.LibPairIndex.lean ====
/-
  Reading an element gather and an element-setting scatter of a two-axis operand at an index.
  An element gather takes, for every `t`, the ONE element of the operand whose row and column are the two components of
  the start index `idx[t, ·]`: each component is read signed and clamped into its axis. An element-setting scatter
  replaces, for every `t`, the operand's element at row `idx[t, 0]`, column `idx[t, 1]` (read signed, NOT clamped; an update
  whose position is outside the operand is dropped) by update `t`. When update `t` lands in row `t` for every `t`, no two
  updates meet, and the result at `(r, c)` is update `r` when its column is `c` and the operand's element otherwise.
-/
import Idealize.ShloMosaic.Lib.ValueIdx

noncomputable section

namespace Cert.LibPairIndex

open Idealize.ShloMosaic Idealize.ShloMosaic.ValueIdx

/-! ## The element gather -/

/-- The dimension numbers of an element gather: operand `[R, C]`, indices `[T, 2]`, result `[T]`; result entry `t` is the
    operand's element at row `idx[t, 0]`, column `idx[t, 1]` (slice sizes `[1, 1]`, both axes collapsed). -/
abbrev pairGatherDims (R C T : Nat)
    (wf : GatherDims.WF ⟨2, ![R, C]⟩ ⟨2, ![T, 2]⟩ ⟨1, ![T]⟩ [] [0, 1] [] [0, 1] [] 1 ![1, 1]) :
    GatherDims ⟨2, ![R, C]⟩ ⟨2, ![T, 2]⟩ ⟨1, ![T]⟩ where
  offsetDims := []
  collapsedSliceDims := [0, 1]
  operandBatchingDims := []
  startIndicesBatchingDims := []
  startIndexMap := [0, 1]
  indexVectorDim := 1
  sliceSizes := ![1, 1]
  wf := wf

section Gather
variable {R C T w : Nat}
  (wf : GatherDims.WF ⟨2, ![R, C]⟩ ⟨2, ![T, 2]⟩ ⟨1, ![T]⟩ [] [0, 1] [] [0, 1] [] 1 ![1, 1])

/-- Result position `t` reads component `c` of its start index at `(t, c)`: the result's one axis is a batch axis and
    supplies the indices' axis 0; the index vector lies along the indices' axis 1. -/
theorem pairGather_siIdx (t : Fin T) (c : Fin (pairGatherDims R C T wf).startIndexMap.length) :
    (pairGatherDims R C T wf).siIdx (ix1 t) c = ix2 t (⟨c.val, c.isLt⟩ : Fin 2) := by
  funext b
  refine Fin.ext ?_
  match b with
  | ⟨0, _⟩ => rfl
  | ⟨1, _⟩ => rfl

/-- On the row axis the slice starts at the first component of the start index, read signed and clamped into
    `[0, R - 1]`: the start index map sends component 0 to the row axis, and the slice there has one row. -/
theorem pairGather_row_start (idx : IVec ⟨2, ![T, 2]⟩ w) (t : Fin T) :
    (pairGatherDims R C T wf).start (ix1 t) idx 0 = min (idx (ix2 t (0 : Fin 2))).toInt.toNat (R - 1) := by
  unfold GatherDims.start
  rw [dif_pos (show (0 : Fin 2) ∈ (pairGatherDims R C T wf).startIndexMap from List.mem_cons_self),
    pairGather_siIdx]
  rfl

/-- On the column axis the slice starts at the second component of the start index, read signed and clamped into
    `[0, C - 1]`. -/
theorem pairGather_col_start (idx : IVec ⟨2, ![T, 2]⟩ w) (t : Fin T) :
    (pairGatherDims R C T wf).start (ix1 t) idx 1 = min (idx (ix2 t (1 : Fin 2))).toInt.toNat (C - 1) := by
  unfold GatherDims.start
  rw [dif_pos (show (1 : Fin 2) ∈ (pairGatherDims R C T wf).startIndexMap from
      List.mem_cons_of_mem _ List.mem_cons_self),
    pairGather_siIdx]
  rfl

/-- Both operand axes are collapsed, so the result gives neither an offset. -/
theorem pairGather_off (t : Fin T) (a : Fin 2) : (pairGatherDims R C T wf).offCoord (ix1 t) a = 0 :=
  GatherDims.offCoord_eq_zero _ _ _ (fun h => ((GatherDims.mem_sKept _ _).mp h).1 (by
    match a with
    | ⟨0, _⟩ => exact List.mem_cons_self
    | ⟨1, _⟩ => exact List.mem_cons_of_mem _ List.mem_cons_self))

end Gather

/-- THE ELEMENT GATHER READ AT `t`: the operand at row `idx[t, 0]` and column `idx[t, 1]`, each read signed and
    clamped into its axis. -/
theorem pairGather_apply {α : Type} {R C T w : Nat} (hR : 0 < R) (hC : 0 < C)
    (wf : GatherDims.WF ⟨2, ![R, C]⟩ ⟨2, ![T, 2]⟩ ⟨1, ![T]⟩ [] [0, 1] [] [0, 1] [] 1 ![1, 1])
    (x : (⟨2, ![R, C]⟩ : Shape).Idx → α) (idx : IVec ⟨2, ![T, 2]⟩ w) (t : Fin T) :
    Host.gather (pairGatherDims R C T wf) x idx (ix1 t)
      = x (ix2 (⟨min (idx (ix2 t (0 : Fin 2))).toInt.toNat (R - 1), by omega⟩ : Fin R)
               (⟨min (idx (ix2 t (1 : Fin 2))).toInt.toNat (C - 1), by omega⟩ : Fin C)) := by
  -- the gather reads the operand at the position whose coordinate on each axis is
  -- slice start + batching coordinate + offset; there is no batching axis and no offset axis
  have hb : ∀ a, (pairGatherDims R C T wf).batchCoord (ix1 t) a = 0 :=
    fun a => GatherDims.batchCoord_eq_zero _ _ a List.not_mem_nil
  unfold Host.gather
  congr 1
  funext a
  refine Fin.ext ?_
  match a with
  | ⟨0, _⟩ =>
    show (pairGatherDims R C T wf).start (ix1 t) idx 0 + (pairGatherDims R C T wf).batchCoord (ix1 t) 0
        + (pairGatherDims R C T wf).offCoord (ix1 t) 0 = min (idx (ix2 t (0 : Fin 2))).toInt.toNat (R - 1)
    rw [hb, pairGather_off, pairGather_row_start]
    rfl
  | ⟨1, _⟩ =>
    show (pairGatherDims R C T wf).start (ix1 t) idx 1 + (pairGatherDims R C T wf).batchCoord (ix1 t) 1
        + (pairGatherDims R C T wf).offCoord (ix1 t) 1 = min (idx (ix2 t (1 : Fin 2))).toInt.toNat (C - 1)
    rw [hb, pairGather_off, pairGather_col_start]
    rfl

/-! ## The element-setting scatter -/

/-- An update at `j` lands on operand position `i` exactly when, on every operand axis, its (unclamped, signed) window
    start plus its window coordinate is `i`'s coordinate: the landing position exists when that sum is inside the
    operand on every axis, and then is that sum; and a coordinate of `i` is inside the operand. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hin
    rw [Option.some.injEq]
    constructor
    · intro he a
      have h1 := hin a
      have h2 : (d.start j idx a + (d.window j a : Int)).toNat = (i a).val := by rw [← he]
      omega
    · intro hall
      funext a
      refine Fin.ext ?_
      have h1 := hall a
      show (d.start j idx a + (d.window j a : Int)).toNat = (i a).val
      omega
  · rename_i hout
    constructor
    · intro he
      cases he
    · intro hall
      refine absurd (fun a => ?_) hout
      have h1 := hall a
      have h2 := (i a).isLt
      omega

/-- One step of a scatter whose body returns the update: the update at `j` replaces the element at its landing
    position, when it has one, and changes nothing when it has none. -/
def setStep {α : Type} {s si u : Shape} {w : Nat} (d : ScatterDims s si u) (idx : IVec si w) (upd : u.Idx → α)
    (acc : s.Idx → α) (j : u.Idx) : s.Idx → α :=
  match d.resultIdx? j idx with
  | some i => fun i' => if i' = i then upd j else acc i'
  | none => acc

/-- A scatter whose body returns the update is the left fold of that step over the update positions in row-major
    order. -/
theorem scatter_set_eq_foldl {α : Type} {s si u : Shape} {w : Nat} (d : ScatterDims s si u) (x : s.Idx → α)
    (idx : IVec si w) (upd : u.Idx → α) :
    Host.scatter d (fun _ b => b) x idx upd
      = ((List.finRange u.numel).map u.rowMajor.symm).foldl (setStep d idx upd) x := by
  unfold Host.scatter
  rw [List.foldl_map]
  rfl

/-- The step read at a position `i'`: the update when it lands exactly there, the element before otherwise. -/
theorem setStep_of_lands {α : Type} {s si u : Shape} {w : Nat} (d : ScatterDims s si u) (idx : IVec si w)
    (upd : u.Idx → α) (acc : s.Idx → α) (j : u.Idx) (i' : s.Idx) (h : d.resultIdx? j idx = some i') :
    setStep d idx upd acc j i' = upd j := by
  unfold setStep
  rw [h]
  exact if_pos rfl

theorem setStep_of_not_lands {α : Type} {s si u : Shape} {w : Nat} (d : ScatterDims s si u) (idx : IVec si w)
    (upd : u.Idx → α) (acc : s.Idx → α) (j : u.Idx) (i' : s.Idx) (h : d.resultIdx? j idx ≠ some i') :
    setStep d idx upd acc j i' = acc i' := by
  unfold setStep
  cases hres : d.resultIdx? j idx with
  | none => rfl
  | some i =>
    have hne : i' ≠ i := fun he => h (by rw [hres, he])
    exact if_neg hne

/-- The dimension numbers of an element-setting scatter: operand `[R, C]`, indices `[T, 2]`, updates `[T]`; update `t`
    goes to the operand's row `idx[t, 0]`, column `idx[t, 1]` (both operand axes inserted: an update is one element). -/
abbrev pairScatterDims (R C T : Nat)
    (wf : ScatterDims.WF ⟨2, ![R, C]⟩ ⟨2, ![T, 2]⟩ ⟨1, ![T]⟩ [] [0, 1] [0, 1] 1) :
    ScatterDims ⟨2, ![R, C]⟩ ⟨2, ![T, 2]⟩ ⟨1, ![T]⟩ where
  updateWindowDims := []
  insertedWindowDims := [0, 1]
  scatterDimsToOperandDims := [0, 1]
  indexVectorDim := 1
  wf := wf

section PairScatter
variable {R C T w : Nat} (wf : ScatterDims.WF ⟨2, ![R, C]⟩ ⟨2, ![T, 2]⟩ ⟨1, ![T]⟩ [] [0, 1] [0, 1] 1)

/-- Update position `t` reads component `c` of its start index at `(t, c)`: the updates' only axis is a scatter axis and
    supplies the indices' axis 0; the index vector lies along the indices' axis 1. -/
theorem pairScatter_siIdx (t : Fin T) (c : Fin (pairScatterDims R C T wf).scatterDimsToOperandDims.length) :
    (pairScatterDims R C T wf).siIdx (ix1 t) c = ix2 t (⟨c.val, c.isLt⟩ : Fin 2) := by
  funext b
  refine Fin.ext ?_
  match b with
  | ⟨0, _⟩ => rfl
  | ⟨1, _⟩ => rfl

/-- On the row axis the window starts at the first component of the start index, read signed and left as it is. -/
theorem pairScatter_row_start (idx : IVec ⟨2, ![T, 2]⟩ w) (t : Fin T) :
    (pairScatterDims R C T wf).start (ix1 t) idx 0 = (idx (ix2 t (0 : Fin 2))).toInt := by
  unfold ScatterDims.start
  rw [dif_pos (show (0 : Fin 2) ∈ (pairScatterDims R C T wf).scatterDimsToOperandDims from List.mem_cons_self),
    pairScatter_siIdx]
  rfl

/-- On the column axis the window starts at the second component of the start index, read signed and left as it is. -/
theorem pairScatter_col_start (idx : IVec ⟨2, ![T, 2]⟩ w) (t : Fin T) :
    (pairScatterDims R C T wf).start (ix1 t) idx 1 = (idx (ix2 t (1 : Fin 2))).toInt := by
  unfold ScatterDims.start
  rw [dif_pos (show (1 : Fin 2) ∈ (pairScatterDims R C T wf).scatterDimsToOperandDims from
      List.mem_cons_of_mem _ List.mem_cons_self),
    pairScatter_siIdx]
  rfl

/-- Both operand axes are inserted (an update is a single element): the update has no window coordinate. -/
theorem pairScatter_window (t : Fin T) (a : Fin 2) : (pairScatterDims R C T wf).window (ix1 t) a = 0 := by
  match a with
  | ⟨0, _⟩ => rfl
  | ⟨1, _⟩ => rfl

/-- Update `t` lands on operand position `(r, c)` exactly when the two components of its start index, read signed, are
    `r` and `c`. -/
theorem pairScatter_lands_iff (idx : IVec ⟨2, ![T, 2]⟩ w) (t : Fin T) (r : Fin R) (c : Fin C) :
    (pairScatterDims R C T wf).resultIdx? (ix1 t) idx = some (ix2 r c)
      ↔ (idx (ix2 t (0 : Fin 2))).toInt = (r.val : Int) ∧ (idx (ix2 t (1 : Fin 2))).toInt = (c.val : Int) := by
  rw [resultIdx?_eq_some_iff]
  constructor
  · intro hall
    have h0 := hall 0
    have h1 := hall 1
    rw [pairScatter_row_start, pairScatter_window] at h0
    rw [pairScatter_col_start, pairScatter_window] at h1
    have h0' : (idx (ix2 t (0 : Fin 2))).toInt + ((0 : Nat) : Int) = (r.val : Int) := h0
    have h1' : (idx (ix2 t (1 : Fin 2))).toInt + ((0 : Nat) : Int) = (c.val : Int) := h1
    exact ⟨by omega, by omega⟩
  · rintro ⟨h0, h1⟩ a
    match a with
    | ⟨0, _⟩ =>
      show (pairScatterDims R C T wf).start (ix1 t) idx 0 + (((pairScatterDims R C T wf).window (ix1 t) 0 : Nat) : Int)
        = (r.val : Int)
      rw [pairScatter_row_start, pairScatter_window]
      omega
    | ⟨1, _⟩ =>
      show (pairScatterDims R C T wf).start (ix1 t) idx 1 + (((pairScatterDims R C T wf).window (ix1 t) 1 : Nat) : Int)
        = (c.val : Int)
      rw [pairScatter_col_start, pairScatter_window]
      omega

end PairScatter

section RowOwned
variable {α : Type} {R C w : Nat} (wf : ScatterDims.WF ⟨2, ![R, C]⟩ ⟨2, ![R, 2]⟩ ⟨1, ![R]⟩ [] [0, 1] [0, 1] 1)
  (idx : IVec ⟨2, ![R, 2]⟩ w) (upd : (⟨1, ![R]⟩ : Shape).Idx → α)
  (hrow : ∀ t : Fin R, (idx (ix2 t (0 : Fin 2))).toInt = (t.val : Int))
include hrow

/-- When update `t`'s row is `t`, it lands on `(r, c)` exactly when `t = r` and its column is `c`. -/
theorem pairScatter_lands_iff_of_row (t r : Fin R) (c : Fin C) :
    (pairScatterDims R C R wf).resultIdx? (ix1 t) idx = some (ix2 r c)
      ↔ t = r ∧ (idx (ix2 r (1 : Fin 2))).toInt = (c.val : Int) := by
  rw [pairScatter_lands_iff, hrow t]
  constructor
  · rintro ⟨h0, h1⟩
    have htr : t = r := Fin.ext (by omega)
    subst htr
    exact ⟨rfl, h1⟩
  · rintro ⟨rfl, h1⟩
    exact ⟨rfl, h1⟩

/-- The fold of the steps over ANY list of update positions, read at `(r, c)`: update `r` when it is in the list and its
    column is `c`; the starting element otherwise. Only update `r` can touch row `r`, and it always writes the same value,
    so neither the order of the list nor a repetition in it matters. -/
theorem pairScatter_foldl_apply (l : List (⟨1, ![R]⟩ : Shape).Idx) (acc : (⟨2, ![R, C]⟩ : Shape).Idx → α)
    (r : Fin R) (c : Fin C) :
    l.foldl (setStep (pairScatterDims R C R wf) idx upd) acc (ix2 r c)
      = if ix1 r ∈ l ∧ (idx (ix2 r (1 : Fin 2))).toInt = (c.val : Int) then upd (ix1 r) else acc (ix2 r c) := by
  induction l generalizing acc with
  | nil =>
    rw [List.foldl_nil, if_neg (fun h => List.not_mem_nil h.1)]
  | cons j l ih =>
    obtain ⟨t, rfl⟩ : ∃ t, j = ix1 t := ⟨j 0, eq_ix1 j⟩
    rw [List.foldl_cons, ih]
    by_cases hcol : (idx (ix2 r (1 : Fin 2))).toInt = (c.val : Int)
    · by_cases hmem : ix1 r ∈ l
      · rw [if_pos ⟨hmem, hcol⟩, if_pos ⟨List.mem_cons_of_mem _ hmem, hcol⟩]
      · rw [if_neg (fun h => hmem h.1)]
        by_cases htr : t = r
        · subst htr
          rw [if_pos ⟨List.mem_cons_self, hcol⟩]
          exact setStep_of_lands _ _ _ _ _ _ ((pairScatter_lands_iff_of_row wf idx hrow t t c).mpr ⟨rfl, hcol⟩)
        · have hnm : ¬ (ix1 r ∈ ix1 t :: l) := by
            intro h
            rcases List.mem_cons.mp h with h | h
            · exact htr (congrFun h 0).symm
            · exact hmem h
          rw [if_neg (fun h => hnm h.1)]
          exact setStep_of_not_lands _ _ _ _ _ _
            (fun h => htr ((pairScatter_lands_iff_of_row wf idx hrow t r c).mp h).1)
    · rw [if_neg (fun h => hcol h.2), if_neg (fun h => hcol h.2)]
      exact setStep_of_not_lands _ _ _ _ _ _
        (fun h => hcol ((pairScatter_lands_iff_of_row wf idx hrow t r c).mp h).2)

end RowOwned

/-- THE ELEMENT-SETTING SCATTER READ AT `(r, c)`, every update `t` landing in row `t` (its first index component, read
    signed, is `t`), so that no two updates meet: update `r` when its column `idx[r, 1]`, read signed, is `c`, and the
    operand's element otherwise. -/
theorem pairScatterSet_apply {α : Type} {R C w : Nat}
    (wf : ScatterDims.WF ⟨2, ![R, C]⟩ ⟨2, ![R, 2]⟩ ⟨1, ![R]⟩ [] [0, 1] [0, 1] 1)
    (x : (⟨2, ![R, C]⟩ : Shape).Idx → α) (idx : IVec ⟨2, ![R, 2]⟩ w) (upd : (⟨1, ![R]⟩ : Shape).Idx → α)
    (hrow : ∀ t : Fin R, (idx (ix2 t (0 : Fin 2))).toInt = (t.val : Int)) (r : Fin R) (c : Fin C) :
    Host.scatter (pairScatterDims R C R wf) (fun _ b => b) x idx upd (ix2 r c)
      = if (idx (ix2 r (1 : Fin 2))).toInt = (c.val : Int) then upd (ix1 r) else x (ix2 r c) := by
  rw [scatter_set_eq_foldl, pairScatter_foldl_apply wf idx upd hrow]
  -- every update position occurs in the row-major list of all of them
  have hmem : ix1 r ∈ (List.finRange (⟨1, ![R]⟩ : Shape).numel).map (⟨1, ![R]⟩ : Shape).rowMajor.symm :=
    List.mem_map.mpr ⟨(⟨1, ![R]⟩ : Shape).rowMajor (ix1 r), List.mem_finRange _, Equiv.symm_apply_apply _ _⟩
  by_cases hcol : (idx (ix2 r (1 : Fin 2))).toInt = (c.val : Int)
  · rw [if_pos ⟨hmem, hcol⟩, if_pos hcol]
  · rw [if_neg (fun h => hcol h.2), if_neg hcol]

end Cert.LibPairIndex

end
-- ==== Proof.RefNewState.lean ====
/-
  The reference picks each neuron's activation by position: it stacks the eight activated arrays as the rows of an
  [8, N] array and takes entry (id[n], n) for neuron n. With every id in 0 … 7 that entry is the value the chain
  of selections `Cert.Act.sel` chooses: row 0 is x itself, and row k is the activation the chain's k-th
  selection substitutes, the reference spelling three of them differently at the exact reals:
  1 / (1 + exp(-x)) is the logistic function; -|x - 0| is 0 - |x - 0|; and "x - 0 differs from itself" never holds.
-/
import proofs.«413046_j43705587204567_2_alg».proof.Proof.RefTerm
import proofs.«413046_j43705587204567_2_alg».proof.Proof.ActBody
import proofs.«413046_j43705587204567_2_alg».proof.Proof.LibPairIndex
import Idealize.ShloMosaic.PureOps.Ideal
import Idealize.ShloMosaic.Lib.ValueIdx
import Idealize.ShloMosaic.Lib.IdealHost
import Idealize.ShloMosaic.Lib.Pipeline.Value
import Idealize.ShloMosaic.Lib.StableHlo.Predicate

noncomputable section

namespace Cert.ReferenceIdeal.Hand

open Cert.ReferenceIdeal Cert.ReferenceIdeal.Gen Idealize.ShloMosaic
open Idealize.ShloMosaic.ValueIdx

/-! ### Index words -/

/-- A word below 2³¹ is not negative read signed, so "i < 0 means i + n" leaves it as it is. -/
theorem wrap_word (w n : BitVec 32) (hw : w.toNat < 2 ^ 31) :
    Scalar.select (IntOp.cmpi .slt w 0#32) (IntOp.addi w n) w = w := by
  have h : ¬ IntOp.cmpi .slt w 0#32 = 1#1 := by
    rw [StableHlo.Predicate.slt_iff_toNat hw (by decide)]
    exact Nat.not_lt_zero _
  rw [eq_zero_of_ne_one h, select_zero]

/-- The wrapped index array at a position whose word is below 2³¹ is the array there. -/
theorem wrapN_apply (n : BitVec 32) (i : IVec S1000000 32) (j : S1000000.Idx) (h : (i j).toNat < 2 ^ 31) :
    wrapN n i j = i j := wrap_word (i j) n h

/-- A neuron array as a column, read at (t, 0), is the array at t. -/
theorem colN_apply (y : IVec S1000000 32) (t : Fin 1000000) : colN y (ix2 t (0 : Fin 1)) = y (ix1 t) :=
  broadcastInDim_apply _ _ y _ (ix1 t) (fun a => by match a with | ⟨0, _⟩ => rfl)

/-- A neuron array as a row, read at (0, t), is the array at t. -/
theorem row_apply (y : FVec Ideal S1000000 .f32) (t : Fin 1000000) : row y (ix2 (0 : Fin 1) t) = y (ix1 t) :=
  broadcastInDim_apply _ _ y _ (ix1 t) (fun a => by match a with | ⟨0, _⟩ => rfl)

/-- The first component of pair t is the id of neuron t, when that is a small word. -/
theorem pairs_fst (act_id : IVec S1000000 32) (t : Fin 1000000) (h : (act_id (ix1 t)).toNat < 2 ^ 31) :
    pairs act_id (ix2 t (0 : Fin 2)) = act_id (ix1 t) := by
  unfold pairs
  rw [concatenate_pair_apply_left (s₁ := S1000000x1) (s₂ := S1000000x1) _ _ _ _ (ix2 t (0 : Fin 2)) rfl (ix2 t (0 : Fin 1))
    (fun b => by match b with | ⟨0, _⟩ => rfl | ⟨1, _⟩ => rfl)]
  rw [colN_apply, wrapN_apply _ _ _ h]

/-- The second component of pair t is t itself. -/
theorem pairs_snd (act_id : IVec S1000000 32) (t : Fin 1000000) :
    pairs act_id (ix2 t (1 : Fin 2)) = BitVec.ofNat 32 t.val := by
  unfold pairs
  rw [concatenate_pair_apply_right (s₁ := S1000000x1) (s₂ := S1000000x1) _ _ _ _ (ix2 t (1 : Fin 2)) rfl rfl (ix2 t (0 : Fin 1))
    (fun b hb => by match b, hb with | ⟨0, _⟩, _ => rfl | ⟨1, _⟩, hb => exact absurd rfl hb) rfl]
  rw [colN_apply, wrapN_apply]
  · rfl
  · show (BitVec.ofNat 32 t.val).toNat < 2 ^ 31
    rw [BitVec.toNat_ofNat]
    have := t.isLt
    omega

/-! ### The gather and the stack, read at a position -/

/-- Entry t of the gather is the stack at row id[t] and column t: both index components are small words, so the
    clamps into the rows 0 … 7 and the columns 0 … N - 1 do nothing. -/
theorem gather_at (x : FVec Ideal S1000000 .f32) (act_id : IVec S1000000 32) (t : Fin 1000000)
    (h : (act_id (ix1 t)).toNat < 8) :
    Host.gather gather_S8x1000000_S1000000x2_S1000000_n_01_n_n_01_1_11 (stack x) (pairs act_id) (ix1 t)
      = stack x (ix2 (⟨(act_id (ix1 t)).toNat, h⟩ : Fin 8) t) := by
  have e := Cert.LibPairIndex.pairGather_apply (R := 8) (C := 1000000) (T := 1000000) (by decide) (by decide)
    gather_S8x1000000_S1000000x2_S1000000_n_01_n_n_01_1_11_wf (stack x) (pairs act_id) t
  refine e.trans (congrArg (stack x) ?_)
  funext d
  match d with
  | ⟨0, _⟩ =>
    refine Fin.ext ?_
    show min (pairs act_id (ix2 t (0 : Fin 2))).toInt.toNat (8 - 1) = (act_id (ix1 t)).toNat
    rw [pairs_fst _ _ (by omega), StableHlo.Predicate.toInt_eq_toNat_of_lt (by omega), Int.toNat_natCast]
    omega
  | ⟨1, _⟩ =>
    refine Fin.ext ?_
    show min (pairs act_id (ix2 t (1 : Fin 2))).toInt.toNat (1000000 - 1) = t.val
    have ht := t.isLt
    have hv : (BitVec.ofNat 32 t.val).toNat = t.val := by rw [BitVec.toNat_ofNat]; omega
    rw [pairs_snd, StableHlo.Predicate.toInt_eq_toNat_of_lt (by omega), hv, Int.toNat_natCast]
    omega

/-- The eight activated arrays by row number. -/
def rows (x : FVec Ideal S1000000 .f32) : Fin 8 → FVec Ideal S1000000 .f32 :=
  ![x, relu x, leaky x, clip x, Host.tanh x, sigm x, softplus x, Host.absf x]

/-- Row k of the stack, read at column t, is the k-th activated array at t. -/
theorem stack_apply (x : FVec Ideal S1000000 .f32) (k : Fin 8) (t : Fin 1000000) :
    stack x (ix2 k t) = rows x k (ix1 t) := by
  have e : stack x (ix2 k t) = row (rows x k) (ix2 (0 : Fin 1) t) :=
    concatenate_ofFn_unit_apply (t := S8x1000000) (s₁ := S1x1000000) 0 (fun n => row (rows x n))
      concatenates_S1x1000000_S1x1000000_S1x1000000_S1x1000000_S1x1000000_S1x1000000_S1x1000000_S1x1000000_S8x1000000_d0
      rfl rfl (ix2 k t) k rfl (ix2 (0 : Fin 1) t)
      (fun b hb => by match b, hb with | ⟨0, _⟩, hb => exact absurd rfl hb | ⟨1, _⟩, _ => rfl)
  exact e.trans (row_apply _ t)

/-! ### One entry: the chain of selections on a value v with id word w -/

/-- The chain of selections of `Cert.Act.sel` at one entry. -/
def selAt (v : EReal) (w : BitVec 32) : EReal :=
  let z : EReal := Ideal.ofBits .f32 0x00000000#32
  let v14 := Scalar.select (IntOp.cmpi .eq w 1#32) (max v z) v
  let v21 := Scalar.select (Ideal.cmp .oge v z) v (Ideal.ofBits .f32 0x3C23D70A#32 * v)
  let v22 := Scalar.select (IntOp.cmpi .eq w 2#32) v21 v14
  let v28 := min (Ideal.ofBits .f32 0x3F800000#32) (max z v)
  let v29 := Scalar.select (IntOp.cmpi .eq w 3#32) v28 v22
  let v33 := Scalar.select (IntOp.cmpi .eq w 4#32) (Ideal.tanh v) v29
  let v37 := Scalar.select (IntOp.cmpi .eq w 5#32) (Ideal.logistic v) v33
  let v43 := v - z
  let v53 := Scalar.select (Ideal.cmp .one v43 v43) (v + z)
    (max v z + Ideal.log1p (Ideal.exp (z - max v43 (-v43))))
  let v54 := Scalar.select (IntOp.cmpi .eq w 6#32) v53 v37
  Scalar.select (IntOp.cmpi .eq w 7#32) (max v (-v)) v54

/-- Every operation of the chain acts entry by entry. -/
theorem sel_apply (x : FVec Ideal S1000000 .f32) (k : IVec S1000000 32) (n : S1000000.Idx) :
    Cert.Act.sel x k n = selAt (x n) (k n) := rfl

/-- Row m of the reference's eight activations is what the chain of selections gives for the id word m, m = 0 … 7:
    for every m but 5 and 6 the two are the same expression; the reference's 1 / (1 + exp(-v)), with its ones the
    constant 1, is the logistic function; and its -|v - 0| is 0 - |v - 0|, the zero being the constant 0. -/
theorem rows_sel (x : FVec Ideal S1000000 .f32) (t : Fin 1000000) (m : Nat) (h : m < 8) :
    rows x ⟨m, h⟩ (ix1 t) = selAt (x (ix1 t)) (BitVec.ofNat 32 m) := by
  interval_cases m
  · rfl
  · rfl
  · rfl
  · rfl
  · rfl
  · show Ideal.div (Ideal.ofBits .f32 0x3F800000#32) (Ideal.ofBits .f32 0x3F800000#32 + Ideal.exp (-(x (ix1 t))))
      = Ideal.logistic (x (ix1 t))
    rw [Ideal.ofBits_one_f32]
    rfl
  · show Scalar.select (Ideal.cmp .une (x (ix1 t) - Ideal.ofBits .f32 0x00000000#32) (x (ix1 t) - Ideal.ofBits .f32 0x00000000#32))
        (x (ix1 t) + Ideal.ofBits .f32 0x00000000#32)
        (max (x (ix1 t)) (Ideal.ofBits .f32 0x00000000#32) + Ideal.log1p (Ideal.exp (-(max (x (ix1 t) - Ideal.ofBits .f32 0x00000000#32) (-(x (ix1 t) - Ideal.ofBits .f32 0x00000000#32))))))
      = Scalar.select (Ideal.cmp .one (x (ix1 t) - Ideal.ofBits .f32 0x00000000#32) (x (ix1 t) - Ideal.ofBits .f32 0x00000000#32))
        (x (ix1 t) + Ideal.ofBits .f32 0x00000000#32)
        (max (x (ix1 t)) (Ideal.ofBits .f32 0x00000000#32) + Ideal.log1p (Ideal.exp (Ideal.ofBits .f32 0x00000000#32 - max (x (ix1 t) - Ideal.ofBits .f32 0x00000000#32) (-(x (ix1 t) - Ideal.ofBits .f32 0x00000000#32)))))
    rw [Ideal.ofBits_zero_f32, zero_sub]
    rfl
  · rfl

/-- Entry (id[n], n) of the stacked activations of x is the activation the chain of selections chooses for neuron n. -/
theorem stack_gather (x : FVec Ideal S1000000 .f32) (act_id : IVec S1000000 32) (hk : ∀ n, (act_id n).toNat < 8) :
    Host.gather gather_S8x1000000_S1000000x2_S1000000_n_01_n_n_01_1_11 (stack x) (pairs act_id)
      = Cert.Act.sel x act_id := by
  funext n
  obtain ⟨t, rfl⟩ : ∃ t, n = ix1 t := ⟨n 0, eq_ix1 n⟩
  have h := hk (ix1 t)
  have hw : act_id (ix1 t) = BitVec.ofNat 32 (act_id (ix1 t)).toNat := by
    apply BitVec.eq_of_toNat_eq
    rw [BitVec.toNat_ofNat]
    omega
  rw [gather_at x act_id t h, stack_apply, sel_apply, rows_sel, ← hw]

/-- The reference's new state is the update of the scaled state, the summed messages, the biases and the ids. -/
theorem newState_eq (state : FVec Ideal S1000000 .f32) (weights : FVec Ideal S16000000 .f32) (biases : FVec Ideal S1000000 .f32)
    (inp : FVec Ideal S1024 .f32) (src dst : IVec S16000000 32) (rec_mask : IVec S16000000 1) (input_idx : IVec S16000000 32)
    (act_id : IVec S1000000 32) (hk : ∀ n, (act_id n).toNat < 8) :
    newState state weights biases inp src dst rec_mask input_idx act_id
      = Cert.Act.update (prev state) (seg state weights inp src dst rec_mask input_idx) biases act_id := by
  unfold newState
  rw [stack_gather _ _ hk]
  rfl

end Cert.ReferenceIdeal.Hand

end
-- ==== Proof.LibAllOnes.lean ====
/-
  A reduce by `and` over one-bit words that are all 1, from the initial value 1, is 1 at every index of the result.
  (The converse — a result of 1 had only 1s — is the library's; this is the direction a mask that a precondition makes
  all-true needs.)
-/
import Idealize.ShloMosaic.PureOps.Reduce
import Idealize.ShloMosaic.Lib.Affine

namespace Cert.LibAllOnes

open Idealize.ShloMosaic

/-- A left fold by `and` from 1 over words that are all 1 stays 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A `stablehlo.reduce` by `and` of an operand that is 1 everywhere, from the initial value 1, is 1 everywhere. -/
theorem reduce_andi_of_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  unfold Host.reduce
  rw [hinit]
  exact foldl_andi_ones (fun n => x (s.rowMajor.symm n)) (fun n => hx _) _

end Cert.LibAllOnes
-- ==== Proof.Bridge.lean ====
/-
  The two programs' host sides compute the same arrays where every edge index is inside its table.
  Both wrap an index below zero by adding the table's length and read the table at the wrapped index; the kernel's
  take then keeps the value only where the wrapped index is inside the table. An index i with 0 ≤ i < n is not below
  zero, so wrapping leaves it alone, and it is inside the table, so the take keeps every value: the take is the plain
  read. Everything else on the two host sides is the same text: the scaled state, the choice by the mask, the
  product with the weights, the sum at the destinations, the requested neurons' index table.
-/
import proofs.«413046_j43705587204567_2_alg».proof.Proof.KernelTerm
import proofs.«413046_j43705587204567_2_alg».proof.Proof.RefTerm
import proofs.«413046_j43705587204567_2_alg».proof.Proof.LibAllOnes
import Idealize.ShloMosaic.Lib.StableHlo.Predicate
import Idealize.ShloMosaic.Lib.Affine

noncomputable section

namespace Cert.Bridge

open Idealize.ShloMosaic Idealize.ShloMosaic.StableHlo.Predicate
open Cert.KernelIdeal (S1000000 S16000000 S1024 S16000000x1 S8192 S8192x1 S_)

variable {F : FTy → Type} [FloatOps F]

theorem select_ne_one {α : Type} (c : BitVec 1) (a b : α) (h : c ≠ 1#1) : Scalar.select c a b = b := if_neg h
theorem select_one {α : Type} (a b : α) : Scalar.select 1#1 a b = a := if_pos rfl

/-- A word that is not negative is left alone by "w < 0 means w + n". -/
theorem wrap_word (w n : BitVec 32) (hw : w.toNat < 2 ^ 31) :
    Scalar.select (IntOp.cmpi .slt w 0#32) (IntOp.addi w n) w = w :=
  select_ne_one _ _ _ fun h => by
    have := (slt_iff_toNat (a := w) (b := 0#32) hw (by decide)).mp h
    simp at this

/-- The kernel's wrapped edge index, at an edge whose index is not negative. -/
theorem wrapE_apply (n : BitVec 32) (i : IVec S16000000 32) (e : S16000000.Idx) (h : (i e).toNat < 2 ^ 31) :
    Cert.KernelIdeal.Hand.wrapE n i e = i e := wrap_word (i e) n h

/-- A one-column table of start indices holds, at each of its positions, the array's entry at some edge. -/
theorem colE_apply (x : IVec S16000000 32) (j : S16000000x1.Idx) : ∃ e, Cert.KernelIdeal.Hand.colE x j = x e := ⟨_, rfl⟩

/-- With every index in 0 … hi, the kernel's test "the wrapped index is inside the table" holds at every edge. -/
theorem inb_one (hi n : BitVec 32) (hhi : hi.toNat < 2 ^ 31) (i : IVec S16000000 32) (h : ∀ e, (i e).toNat ≤ hi.toNat)
    (e : S16000000.Idx) :
    Cert.KernelIdeal.Hand.inb hi (Cert.KernelIdeal.Hand.colE (Cert.KernelIdeal.Hand.wrapE n i)) e = 1#1 := by
  unfold Cert.KernelIdeal.Hand.inb
  refine Cert.LibAllOnes.reduce_andi_of_all_one _ _ _ _ rfl (fun j => ?_) e
  obtain ⟨e', he'⟩ := colE_apply (Cert.KernelIdeal.Hand.wrapE n i) j
  have hw : (i e').toNat < 2 ^ 31 := lt_of_le_of_lt (h e') hhi
  show IntOp.andi (IntOp.cmpi .sge (Cert.KernelIdeal.Hand.colE (Cert.KernelIdeal.Hand.wrapE n i) j) 0#32)
      (IntOp.cmpi .sle (Cert.KernelIdeal.Hand.colE (Cert.KernelIdeal.Hand.wrapE n i) j) hi) = 1#1
  rw [he', wrapE_apply n i e' hw]
  exact IntOp.andi_eq_one.mpr ⟨(sge_iff_toNat hw (by decide)).mpr (Nat.zero_le _), (sle_iff_toNat hw hhi).mpr (h e')⟩

/-- The kernel's take from the neurons' table is the plain read at the wrapped indices. -/
theorem take1_eq (x : FVec F S1000000 .f32) (i : IVec S16000000 32) (h : ∀ e, (i e).toNat < 1000000) :
    Cert.KernelIdeal.Hand.take1 x i
      = Host.gather Cert.KernelIdeal.gather_S1000000_S16000000x1_S16000000_n_0_n_n_0_1_1 x
          (Cert.KernelIdeal.Hand.colE (Cert.KernelIdeal.Hand.wrapE 1000000#32 i)) := by
  funext e
  unfold Cert.KernelIdeal.Hand.take1
  show Scalar.select (Cert.KernelIdeal.Hand.inb 999999#32 (Cert.KernelIdeal.Hand.colE (Cert.KernelIdeal.Hand.wrapE 1000000#32 i)) e) _ _ = _
  rw [inb_one 999999#32 1000000#32 (by decide) i (fun e => by have := h e; show _ ≤ 999999; omega) e]
  exact select_one _ _

/-- The kernel's take from the input vector is the plain read at the wrapped indices. -/
theorem take2_eq (x : FVec F S1024 .f32) (i : IVec S16000000 32) (h : ∀ e, (i e).toNat < 1024) :
    Cert.KernelIdeal.Hand.take2 x i
      = Host.gather Cert.KernelIdeal.gather_S1024_S16000000x1_S16000000_n_0_n_n_0_1_1 x
          (Cert.KernelIdeal.Hand.colE (Cert.KernelIdeal.Hand.wrapE 1024#32 i)) := by
  funext e
  unfold Cert.KernelIdeal.Hand.take2
  show Scalar.select (Cert.KernelIdeal.Hand.inb 1023#32 (Cert.KernelIdeal.Hand.colE (Cert.KernelIdeal.Hand.wrapE 1024#32 i)) e) _ _ = _
  rw [inb_one 1023#32 1024#32 (by decide) i (fun e => by have := h e; show _ ≤ 1023; omega) e]
  exact select_one _ _

/-- The scaled state is the same text in both programs. -/
theorem prev_eq (state : FVec F S1000000 .f32) :
    Cert.KernelIdeal.Hand.prev state = Cert.ReferenceIdeal.Hand.prev state := rfl

/-- What each edge reads is the same in both programs where the edge indices are inside their tables. -/
theorem fromState_eq (state : FVec F S1000000 .f32) (inp : FVec F S1024 .f32) (src : IVec S16000000 32)
    (rec_mask : IVec S16000000 1) (input_idx : IVec S16000000 32)
    (hsrc : ∀ e, (src e).toNat < 1000000) (hidx : ∀ e, (input_idx e).toNat < 1024) :
    Cert.KernelIdeal.Hand.fromState state inp src rec_mask input_idx
      = Cert.ReferenceIdeal.Hand.fromState state inp src rec_mask input_idx := by
  unfold Cert.KernelIdeal.Hand.fromState
  rw [take1_eq _ _ hsrc, take2_eq _ _ hidx]
  rfl

/-- The summed messages are the same in both programs where the edge indices are inside their tables. -/
theorem seg_eq (state : FVec F S1000000 .f32) (weights : FVec F S16000000 .f32) (inp : FVec F S1024 .f32)
    (src dst : IVec S16000000 32) (rec_mask : IVec S16000000 1) (input_idx : IVec S16000000 32)
    (hsrc : ∀ e, (src e).toNat < 1000000) (hidx : ∀ e, (input_idx e).toNat < 1024) :
    Cert.KernelIdeal.Hand.seg state weights inp src dst rec_mask input_idx
      = Cert.ReferenceIdeal.Hand.seg state weights inp src dst rec_mask input_idx := by
  unfold Cert.KernelIdeal.Hand.seg
  rw [fromState_eq state inp src rec_mask input_idx hsrc hidx]
  rfl

/-- The requested neurons' index table is the same text in both programs. -/
theorem outIdx_eq (out_ids : IVec S8192 32) :
    Cert.KernelIdeal.Hand.outIdx out_ids = Cert.ReferenceIdeal.Hand.outIdx out_ids := rfl

/-- The last read's dimension numbers are the same record in both programs. -/
theorem gatherOut_eq :
    Cert.KernelIdeal.gather_S1000000_S8192x1_S8192_n_0_n_n_0_1_1 = Cert.ReferenceIdeal.gather_S1000000_S8192x1_S8192_n_0_n_n_0_1_1 := rfl

end Cert.Bridge

end
-- ==== Proof.lean ====
/-
  One step of a network of 1,000,000 neurons and 16,000,000 edges, computed two ways, gives the same new state at the
  8192 requested neurons, over the extended reals, wherever every edge's source is a neuron number, every edge's
  input position a position of the input vector, and every activation id one of the eight activations.

  Both programs scale the previous state by 0.33, let each edge carry its weight times either its source's scaled
  state or an entry of the input vector, sum the messages at their destinations, add scaled state, summed
  messages and bias at each neuron, apply the activation the neuron's id names, and read the requested neurons.
  They differ in three places. The kernel program reads the per-edge values with a take that discards reads outside
  the table: inside the table it is the plain read (`Cert.Bridge`). It computes the sums and activations in one
  launch over the four per-neuron arrays padded to 1,024,000 entries and laid out as 8000 rows of 128, two blocks
  of 4000 rows: entry by entry that is the update `Cert.Act.update` of the arrays themselves
  (`Cert.KernelIdeal.Hand.run`). And it chooses the activation by a chain of selections on the id where the
  reference stacks the eight activated arrays and takes entry (id[n], n): for an id in 0 … 7 these agree
  (`Cert.ReferenceIdeal.Hand.newState_eq`). No law of arithmetic that fails at the infinities is used, so the
  finiteness of the float inputs is not needed; the three index ranges are.
-/
import proofs.«413046_j43705587204567_2_alg».proof.Defs
import proofs.«413046_j43705587204567_2_alg».proof.Proof.Gen.Kernel
import proofs.«413046_j43705587204567_2_alg».proof.Proof.Gen.Kernel.Skeleton
import proofs.«413046_j43705587204567_2_alg».proof.Proof.Gen.Kernel.Launch
import proofs.«413046_j43705587204567_2_alg».proof.Proof.Gen.Kernel.Points
import proofs.«413046_j43705587204567_2_alg».proof.Proof.Gen.Kernel.Frame
import proofs.«413046_j43705587204567_2_alg».proof.Proof.Gen.KernelIdeal
import proofs.«413046_j43705587204567_2_alg».proof.Proof.Gen.KernelIdeal.Skeleton
import proofs.«413046_j43705587204567_2_alg».proof.Proof.Gen.KernelIdeal.Launch
import proofs.«413046_j43705587204567_2_alg».proof.Proof.Gen.KernelIdeal.Points
import proofs.«413046_j43705587204567_2_alg».proof.Proof.Gen.KernelIdeal.Frame
import proofs.«413046_j43705587204567_2_alg».proof.Proof.Gen.ReferenceIdeal
import proofs.«413046_j43705587204567_2_alg».proof.Proof.Gen.Pre_finite_inputs
import proofs.«413046_j43705587204567_2_alg».proof.Proof.PreRange
import proofs.«413046_j43705587204567_2_alg».proof.Proof.KernelRun
import proofs.«413046_j43705587204567_2_alg».proof.Proof.RefRead
import proofs.«413046_j43705587204567_2_alg».proof.Proof.RefNewState
import proofs.«413046_j43705587204567_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference is a line of host operations, none of which writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _),
      (h c Cert.ReferenceIdeal.main_arg7).trans (Cert.ReferenceIdeal.Hand.arg7_eq _),
      (h c Cert.ReferenceIdeal.main_arg8).trans (Cert.ReferenceIdeal.Hand.arg8_eq _),
      (h c Cert.ReferenceIdeal.main_arg9).trans (Cert.ReferenceIdeal.Hand.arg9_eq _)⟩)
    (Cert.ReferenceIdeal.Hand.run_main (F := Ideal) m ρ)

/-- Nothing of the kernel program was rewritten to read it over the extended reals. -/
theorem preserves : Cert.preserves_Kernel_KernelIdeal := trivial

/-- The reference's result term, under the index ranges, is the kernel program's: the requested entries of the
    update of the scaled state, the summed messages, the biases and the ids. -/
theorem out_eq_update (a0 : FVec Ideal Cert.KernelIdeal.S1000000 .f32) (a1 : FVec Ideal Cert.KernelIdeal.S16000000 .f32)
    (a2 : FVec Ideal Cert.KernelIdeal.S1000000 .f32) (a3 : FVec Ideal Cert.KernelIdeal.S1024 .f32)
    (a4 a5 : IVec Cert.KernelIdeal.S16000000 32) (a6 : IVec Cert.KernelIdeal.S16000000 1) (a7 : IVec Cert.KernelIdeal.S16000000 32)
    (a8 : IVec Cert.KernelIdeal.S1000000 32) (a9 : IVec Cert.KernelIdeal.S8192 32)
    (h4 : ∀ e, (a4 e).toNat < 1000000) (h7 : ∀ e, (a7 e).toNat < 1024) (h8 : ∀ n, (a8 n).toNat < 8) :
    Cert.ReferenceIdeal.Hand.out a0 a1 a2 a3 a4 a5 a6 a7 a8 a9
      = Host.gather Cert.KernelIdeal.gather_S1000000_S8192x1_S8192_n_0_n_n_0_1_1
          (Cert.Act.update (Cert.KernelIdeal.Hand.prev a0) (Cert.KernelIdeal.Hand.seg a0 a1 a3 a4 a5 a6 a7) a2 a8)
          (Cert.KernelIdeal.Hand.outIdx a9) := by
  unfold Cert.ReferenceIdeal.Hand.out
  rw [Cert.ReferenceIdeal.Hand.newState_eq a0 a1 a2 a3 a4 a5 a6 a7 a8 h8, Cert.Bridge.seg_eq a0 a1 a3 a4 a5 a6 a7 h4 h7]
  rfl

/-- The reference's run, read: its result buffer holds `out` of its arguments, and its arguments are unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      fun r => ∀ c : Dev Cert.ReferenceIdeal.nD,
        r.2.mem ((c.tc : Thread Cert.ReferenceIdeal.nD Cert.ReferenceIdeal.τ).loc Cert.ReferenceIdeal.main_v65)
          = Cert.ReferenceIdeal.Hand.out (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9) :=
  (θ_run Cert.ReferenceIdeal.defs _ _).mono (fun _ h c => ⟨(h c Cert.ReferenceIdeal.main_v65).trans (Cert.ReferenceIdeal.Hand.out_eq _),
      (h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _),
      (h c Cert.ReferenceIdeal.main_arg7).trans (Cert.ReferenceIdeal.Hand.arg7_eq _),
      (h c Cert.ReferenceIdeal.main_arg8).trans (Cert.ReferenceIdeal.Hand.arg8_eq _),
      (h c Cert.ReferenceIdeal.main_arg9).trans (Cert.ReferenceIdeal.Hand.arg9_eq _)⟩)
    (Cert.ReferenceIdeal.Hand.run_main (F := Ideal) m' ρ')

/-- The index ranges the precondition gives, at a device. -/
theorem ranges_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ e, ((m ((c.tc : Thread Cert.KernelIdeal.nD Cert.KernelIdeal.τ).loc Cert.KernelIdeal.main_arg4)) e).toNat < 1000000)
      ∧ (∀ e, ((m ((c.tc : Thread Cert.KernelIdeal.nD Cert.KernelIdeal.τ).loc Cert.KernelIdeal.main_arg7)) e).toNat < 1024)
      ∧ (∀ n, ((m ((c.tc : Thread Cert.KernelIdeal.nD Cert.KernelIdeal.τ).loc Cert.KernelIdeal.main_arg8)) n).toNat < 8) :=
  Cert.PreRange.ranges _ _ _ _ _ _ _ _ _ _ (hpre c)

/-- From memories that agree on the arguments, with the precondition on the kernel program's, both programs run and
    end with the same result. -/
theorem algebraic : Cert.algebraic_KernelIdeal_ReferenceIdeal := by
  intro m ρ m' ρ' hpre hagree
  refine ⟨_, Cert.KernelIdeal.Hand.run (F := Ideal) m ρ, ?_⟩
  refine (θ_run Cert.ReferenceIdeal.defs _ _).mono (fun r h c => ?_) (ref_run m' ρ')
  obtain ⟨h4, h7, h8⟩ := ranges_of_pre m hpre c
  obtain ⟨e0, e1, e2, e3, e4, e5, e6, e7, e8, e9⟩ := hagree c
  obtain ⟨hv, k0, k1, k2, k3, k4, k5, k6, k7, k8, k9⟩ := h c
  refine ⟨?_, k0, k1, k2, k3, k4, k5, k6, k7, k8, k9⟩
  rw [hv, e0, e1, e2, e3, e4, e5, e6, e7, e8, e9]
  exact out_eq_update _ _ _ _ _ _ _ _ _ _ h4 h7 h8

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
